-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x256 : Shape := ⟨3, ![128, 64, 256]⟩
abbrev S128 : Shape := ⟨1, ![128]⟩
abbrev S_ : Shape := ⟨0, ![]⟩

class Facts : Prop where
  bcast_S_S128x64x256 : S_.BroadcastsInDim S128x64x256 (![] : Fin 0 → Fin S128x64x256.rank)
  reducesTo_S128x64x256_S_d0_1_2 : S128x64x256.ReducesTo [0, 1, 2] S_
  h_S_ : 0 < S_.numel

variable [Facts]

def fn {F : FTy → Type} [FloatOps F] (main_arg0 : FVec F S128x64x256 .f32) (main_arg1 : IVec S128 32) : IVec S_ 1 :=
  let main_v0 : FVec F S128x64x256 .f32 := Host.absf main_arg0
  let main_cst : FVec F S_ .f32 := constant S_ .f32 0x7F800000#32
  let main_v1 : FVec F S128x64x256 .f32 := broadcastInDim S128x64x256 ![] bcast_S_S128x64x256 main_cst
  let main_v2 : IVec S128x64x256 1 := cmpf .olt main_v0 main_v1
  let main_c : IVec S_ 1 := constantI S_ 1 1#1
  let main_v3 : IVec S_ 1 := (fun x v => Host.reduce IntOp.andi x v reducesTo_S128x64x256_S_d0_1_2 h_S_) main_v2 main_c
  main_v3
-- ==== Kernel.lean ====
abbrev S128x64x256 : Shape := ⟨3, ![128, 64, 256]⟩
abbrev S128 : Shape := ⟨1, ![128]⟩
abbrev S8192x256 : Shape := ⟨2, ![8192, 256]⟩
abbrev S128x64 : Shape := ⟨2, ![128, 64]⟩
abbrev S8192 : Shape := ⟨1, ![8192]⟩
abbrev S8192x1 : Shape := ⟨2, ![8192, 1]⟩
abbrev S1x8192 : Shape := ⟨2, ![1, 8192]⟩
abbrev S512x1 : Shape := ⟨2, ![512, 1]⟩
abbrev S512x8192 : Shape := ⟨2, ![512, 8192]⟩
abbrev S512x256 : Shape := ⟨2, ![512, 256]⟩
abbrev S1024x256 : Shape := ⟨2, ![1024, 256]⟩
abbrev S512x1024 : Shape := ⟨2, ![512, 1024]⟩
abbrev S512 : Shape := ⟨1, ![512]⟩
abbrev S1x1024 : Shape := ⟨2, ![1, 1024]⟩
abbrev S_ : Shape := ⟨0, ![]⟩

abbrev nBuf : Space → Nat
  | .hbm => 15
  | .vmem => 7
  | .smem => 0
  | _ => 0

abbrev bufTy : (tb : Table) → Fin (tcTables nBuf tb) → BufTy
  | .hbm, ⟨0, _⟩ => ⟨S128x64x256, .f32⟩
  | .hbm, ⟨1, _⟩ => ⟨S128, .i32⟩
  | .hbm, ⟨2, _⟩ => ⟨S8192x256, .f32⟩
  | .hbm, ⟨3, _⟩ => ⟨S128x64, .i32⟩
  | .hbm, ⟨4, _⟩ => ⟨S8192, .i32⟩
  | .hbm, ⟨5, _⟩ => ⟨S8192x1, .i32⟩
  | .hbm, ⟨6, _⟩ => ⟨S1x8192, .i32⟩
  | .hbm, ⟨7, _⟩ => ⟨S8192x256, .bf16⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S8192x256, .bf16⟩
  | .local _ .vmem, ⟨1, _⟩ => ⟨S512x1, .i32⟩
  | .local _ .vmem, ⟨2, _⟩ => ⟨S512x1, .i32⟩
  | .local _ .vmem, ⟨3, _⟩ => ⟨S1x8192, .i32⟩
  | .local _ .vmem, ⟨4, _⟩ => ⟨S512x1, .f32⟩
  | .local _ .vmem, ⟨5, _⟩ => ⟨S512x1, .f32⟩
  | .local _ .vmem, ⟨6, _⟩ => ⟨S512x8192, .f32⟩
  | _, _ => ⟨S128x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v2 : Index := Scalar.indexCast v1
  let c0 : Index := 0#32
  ![v2.toNat, 0]
def k0_mult2 : BitVec 32 :=
  let c0_i32 : BitVec 32 := 0#32
  let c1024_i32 : BitVec 32 := 1024#32
  let v8 : BitVec 32 := Scalar.muli c0_i32 c1024_i32
  v8
def k0_off2 (c0_i32 : BitVec 32) : Fin 2 → Nat :=
  let c1024_i32 : BitVec 32 := 1024#32
  let v8 : BitVec 32 := Scalar.muli c0_i32 c1024_i32
  let v9 : BitVec 32 := v8
  let v10 : Index := Scalar.indexCast v9
  let c0_2 : Index := 0#32
  ![v10.toNat, 0]
def k0_off3 (c0_i32 : BitVec 32) : Fin 2 → Nat :=
  let c0_5 : Index := 0#32
  let c1024_i32 : BitVec 32 := 1024#32
  let v8 : BitVec 32 := Scalar.muli c0_i32 c1024_i32
  let v9 : BitVec 32 := v8
  let v16 : Index := Scalar.indexCast v9
  ![0, v16.toNat]
def k0_mult3 : BitVec 32 :=
  let c1_i32 : BitVec 32 := 1#32
  let c1024_i32_7 : BitVec 32 := 1024#32
  let v23 : BitVec 32 := Scalar.muli c1_i32 c1024_i32_7
  v23
def k0_mult4 : BitVec 32 :=
  let c2_i32 : BitVec 32 := 2#32
  let c1024_i32_13 : BitVec 32 := 1024#32
  let v38 : BitVec 32 := Scalar.muli c2_i32 c1024_i32_13
  v38
def k0_mult5 : BitVec 32 :=
  let c3_i32 : BitVec 32 := 3#32
  let c1024_i32_19 : BitVec 32 := 1024#32
  let v53 : BitVec 32 := Scalar.muli c3_i32 c1024_i32_19
  v53
def k0_mult6 : BitVec 32 :=
  let c4_i32 : BitVec 32 := 4#32
  let c1024_i32_25 : BitVec 32 := 1024#32
  let v68 : BitVec 32 := Scalar.muli c4_i32 c1024_i32_25
  v68
def k0_mult7 : BitVec 32 :=
  let c5_i32 : BitVec 32 := 5#32
  let c1024_i32_31 : BitVec 32 := 1024#32
  let v83 : BitVec 32 := Scalar.muli c5_i32 c1024_i32_31
  v83
def k0_mult8 : BitVec 32 :=
  let c6_i32 : BitVec 32 := 6#32
  let c1024_i32_37 : BitVec 32 := 1024#32
  let v98 : BitVec 32 := Scalar.muli c6_i32 c1024_i32_37
  v98
def k0_mult9 : BitVec 32 :=
  let c7_i32 : BitVec 32 := 7#32
  let c1024_i32_43 : BitVec 32 := 1024#32
  let v113 : BitVec 32 := Scalar.muli c7_i32 c1024_i32_43
  v113
def k0_mult10 : BitVec 32 :=
  let c0_i32_52 : BitVec 32 := 0#32
  let c1024_i32_53 : BitVec 32 := 1024#32
  let v131 : BitVec 32 := Scalar.muli c0_i32_52 c1024_i32_53
  v131
def k0_off4 (c0_i32_52 : BitVec 32) : Fin 2 → Nat :=
  let c0_54 : Index := 0#32
  let c1024_i32_53 : BitVec 32 := 1024#32
  let v131 : BitVec 32 := Scalar.muli c0_i32_52 c1024_i32_53
  let v132 : BitVec 32 := v131
  let v133 : Index := Scalar.indexCast v132
  ![0, v133.toNat]
def k0_mult11 : BitVec 32 :=
  let c1_i32_61 : BitVec 32 := 1#32
  let c1024_i32_62 : BitVec 32 := 1024#32
  let v163 : BitVec 32 := Scalar.muli c1_i32_61 c1024_i32_62
  v163
def k0_mult12 : BitVec 32 :=
  let c2_i32_70 : BitVec 32 := 2#32
  let c1024_i32_71 : BitVec 32 := 1024#32
  let v195 : BitVec 32 := Scalar.muli c2_i32_70 c1024_i32_71
  v195
def k0_mult13 : BitVec 32 :=
  let c3_i32_79 : BitVec 32 := 3#32
  let c1024_i32_80 : BitVec 32 := 1024#32
  let v227 : BitVec 32 := Scalar.muli c3_i32_79 c1024_i32_80
  v227
def k0_mult14 : BitVec 32 :=
  let c4_i32_88 : BitVec 32 := 4#32
  let c1024_i32_89 : BitVec 32 := 1024#32
  let v259 : BitVec 32 := Scalar.muli c4_i32_88 c1024_i32_89
  v259
def k0_mult15 : BitVec 32 :=
  let c5_i32_97 : BitVec 32 := 5#32
  let c1024_i32_98 : BitVec 32 := 1024#32
  let v291 : BitVec 32 := Scalar.muli c5_i32_97 c1024_i32_98
  v291
def k0_mult16 : BitVec 32 :=
  let c6_i32_106 : BitVec 32 := 6#32
  let c1024_i32_107 : BitVec 32 := 1024#32
  let v323 : BitVec 32 := Scalar.muli c6_i32_106 c1024_i32_107
  v323
def k0_mult17 : BitVec 32 :=
  let c7_i32_115 : BitVec 32 := 7#32
  let c1024_i32_116 : BitVec 32 := 1024#32
  let v355 : BitVec 32 := Scalar.muli c7_i32_115 c1024_i32_116
  v355
def k0_mult18 : BitVec 32 :=
  let c0_i32_126 : BitVec 32 := 0#32
  let c1024_i32_127 : BitVec 32 := 1024#32
  let v388 : BitVec 32 := Scalar.muli c0_i32_126 c1024_i32_127
  v388
def k0_mult19 : BitVec 32 :=
  let c1_i32_131 : BitVec 32 := 1#32
  let c1024_i32_132 : BitVec 32 := 1024#32
  let v407 : BitVec 32 := Scalar.muli c1_i32_131 c1024_i32_132
  v407
def k0_mult20 : BitVec 32 :=
  let c2_i32_136 : BitVec 32 := 2#32
  let c1024_i32_137 : BitVec 32 := 1024#32
  let v426 : BitVec 32 := Scalar.muli c2_i32_136 c1024_i32_137
  v426
def k0_mult21 : BitVec 32 :=
  let c3_i32_141 : BitVec 32 := 3#32
  let c1024_i32_142 : BitVec 32 := 1024#32
  let v445 : BitVec 32 := Scalar.muli c3_i32_141 c1024_i32_142
  v445
def k0_mult22 : BitVec 32 :=
  let c4_i32_146 : BitVec 32 := 4#32
  let c1024_i32_147 : BitVec 32 := 1024#32
  let v464 : BitVec 32 := Scalar.muli c4_i32_146 c1024_i32_147
  v464
def k0_mult23 : BitVec 32 :=
  let c5_i32_151 : BitVec 32 := 5#32
  let c1024_i32_152 : BitVec 32 := 1024#32
  let v483 : BitVec 32 := Scalar.muli c5_i32_151 c1024_i32_152
  v483
def k0_mult24 : BitVec 32 :=
  let c6_i32_156 : BitVec 32 := 6#32
  let c1024_i32_157 : BitVec 32 := 1024#32
  let v502 : BitVec 32 := Scalar.muli c6_i32_156 c1024_i32_157
  v502
def k0_mult25 : BitVec 32 :=
  let c7_i32_161 : BitVec 32 := 7#32
  let c1024_i32_162 : BitVec 32 := 1024#32
  let v521 : BitVec 32 := Scalar.muli c7_i32_161 c1024_i32_162
  v521
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x64x256_S8192x256 : S128x64x256.ShapeCasts S8192x256
  bcast_S128_S128x64_0 : S128.BroadcastsInDim S128x64 (![0] : Fin 1 → Fin S128x64.rank)
  shapeCasts_S128x64_S8192 : S128x64.ShapeCasts S8192
  shapeCasts_S8192_S8192x1 : S8192.ShapeCasts S8192x1
  shapeCasts_S8192_S1x8192 : S8192.ShapeCasts S1x8192
  bitsLt_bf16_f32 : FTy.bits .bf16 < FTy.bits .f32
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1024x256 : 0 < S1024x256.numel
  shapeCasts_S1024x256_S1024x256 : S1024x256.ShapeCasts S1024x256
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  natLt_1_32 : 1 < 32
  reducesTo_S8192x1_S_d0_1 : S8192x1.ReducesTo [0, 1] S_
  h_S_ : 0 < S_.numel
  dot_S512x256_S1024x256_S512x1024_1_1_0_0_n_n_wf : DotDims.WF S512x256 S1024x256 S512x1024 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x256.size a ≤ S8192x256.size a
  k0_mult2_dvd : 1024 ∣ k0_mult2.toNat
  k0_off2_inb : ∀ (r : Fin 8), ∀ a, (k0_off2 (BitVec.ofNat 32 r.val)) a + S1024x256.size a ≤ S8192x256.size a
  k0_off3_inb : ∀ (r : Fin 8), ∀ a, (k0_off3 (BitVec.ofNat 32 r.val)) a + S512x1024.size a ≤ S512x8192.size a
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  k0_mult9_dvd : 1024 ∣ k0_mult9.toNat
  k0_mult10_dvd : 1024 ∣ k0_mult10.toNat
  k0_off4_inb : ∀ (r : Fin 8), ∀ a, (k0_off4 (BitVec.ofNat 32 r.val)) a + S1x1024.size a ≤ S1x8192.size a
  k0_mult11_dvd : 1024 ∣ k0_mult11.toNat
  k0_mult12_dvd : 1024 ∣ k0_mult12.toNat
  k0_mult13_dvd : 1024 ∣ k0_mult13.toNat
  k0_mult14_dvd : 1024 ∣ k0_mult14.toNat
  k0_mult15_dvd : 1024 ∣ k0_mult15.toNat
  k0_mult16_dvd : 1024 ∣ k0_mult16.toNat
  k0_mult17_dvd : 1024 ∣ k0_mult17.toNat
  k0_mult18_dvd : 1024 ∣ k0_mult18.toNat
  k0_mult19_dvd : 1024 ∣ k0_mult19.toNat
  k0_mult20_dvd : 1024 ∣ k0_mult20.toNat
  k0_mult21_dvd : 1024 ∣ k0_mult21.toNat
  k0_mult22_dvd : 1024 ∣ k0_mult22.toNat
  k0_mult23_dvd : 1024 ∣ k0_mult23.toNat
  k0_mult24_dvd : 1024 ∣ k0_mult24.toNat
  k0_mult25_dvd : 1024 ∣ k0_mult25.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .bf16 = 32 ∨ (Rect.block (s := S8192x256) S8192x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_v5) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x64x256 : Shape := ⟨3, ![128, 64, 256]⟩
abbrev S128 : Shape := ⟨1, ![128]⟩
abbrev S64x128x256 : Shape := ⟨3, ![64, 128, 256]⟩
abbrev S8192x256 : Shape := ⟨2, ![8192, 256]⟩
abbrev S1x128 : Shape := ⟨2, ![1, 128]⟩
abbrev S64x128 : Shape := ⟨2, ![64, 128]⟩
abbrev S8192 : Shape := ⟨1, ![8192]⟩
abbrev S256x8192 : Shape := ⟨2, ![256, 8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 47
  | .vmem => 0
  | .smem => 0
  | _ => 0

abbrev bufTy : (tb : Table) → Fin (tcTables nBuf tb) → BufTy
  | .hbm, ⟨0, _⟩ => ⟨S128x64x256, .f32⟩
  | .hbm, ⟨1, _⟩ => ⟨S128, .i32⟩
  | .hbm, ⟨2, _⟩ => ⟨S64x128x256, .f32⟩
  | .hbm, ⟨3, _⟩ => ⟨S8192x256, .f32⟩
  | .hbm, ⟨4, _⟩ => ⟨S1x128, .i32⟩
  | .hbm, ⟨5, _⟩ => ⟨S64x128, .i32⟩
  | .hbm, ⟨6, _⟩ => ⟨S8192, .i32⟩
  | .hbm, ⟨7, _⟩ => ⟨S256x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S8192x1, .i32⟩
  | .hbm, ⟨18, _⟩ => ⟨S1x8192, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S128x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  transposes_S128x64x256_S64x128x256_1_0_2 : S128x64x256.Transposes [1, 0, 2] S64x128x256
  shapeCasts_S64x128x256_S8192x256 : S64x128x256.ShapeCasts S8192x256
  shapeCasts_S128_S1x128 : S128.ShapeCasts S1x128
  bcast_S1x128_S64x128_0_1 : S1x128.BroadcastsInDim S64x128 (![0, 1] : Fin 2 → Fin S64x128.rank)
  shapeCasts_S64x128_S8192 : S64x128.ShapeCasts S8192
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.RowLoss.lean ====
/-
  The supervised-contrastive loss on the extended reals, stated once for both programs.

  ONE ANCHOR ROW over an abstract finite set of columns `J`: `s j` is the row's scaled score against column `j`,
  `msk j` is `1` when the two labels agree and `0` otherwise, `u` is the literal one. With `M = max_j s j`
  (folded from `⊥`), `l j = s j - M`, `e j = exp (l j)` and `N = ∑ j, e j * (u - msk j)`, the row's value is
  `(∑ j, msk j * (l j - log (e j + N))) / ∑ j, msk j` (`refRow`); `kerRow` is the same quotient with the numerator
  split as `∑ j, msk j * l j - ∑ j, msk j * log (e j + N)`. On real scores the two agree (`kerRow_eq_refRow`): every
  intermediate is then a real number, and only there may a difference be taken out of a sum. Both are unchanged by a
  bijection of the columns.

  THE WHOLE LOSS over rows and columns indexed by pairs (class slot, view): the score of two pairs is the inner product
  of their feature rows, the mask compares their slots' labels, and the loss is `w * ((∑ p, row p) / n)`.
-/
import Idealize.ShloMosaic.PureOps.Ideal
import Idealize.ShloMosaic.PureOps.Ideal.Laws
import Idealize.ShloMosaic.Lib.ValueIdx

noncomputable section

namespace Cert.RowLoss

open Idealize.ShloMosaic

section Row

variable {J : Type} [Fintype J]

/-- The row's largest score, folded from `⊥`. -/
def top (s : J → EReal) : EReal := Finset.univ.fold max ⊥ s
/-- The shifted score. -/
def lg (s : J → EReal) (j : J) : EReal := s j - top s
/-- Its exponential. -/
def ex (s : J → EReal) (j : J) : EReal := Ideal.exp (lg s j)
/-- The exponentials of the columns with another label, summed. -/
def neg (u : EReal) (s msk : J → EReal) : EReal := ∑ j, ex s j * (u - msk j)
/-- The logarithm of a column's exponential plus that sum. -/
def lp (u : EReal) (s msk : J → EReal) (j : J) : EReal := Ideal.log (ex s j + neg u s msk)
/-- The row's value, the difference taken inside the sum. -/
def refRow (u : EReal) (s msk : J → EReal) : EReal :=
  Ideal.div (∑ j, msk j * (lg s j - lp u s msk j)) (∑ j, msk j)
/-- The row's value, the difference taken of the two sums. -/
def kerRow (u : EReal) (s msk : J → EReal) : EReal :=
  Ideal.div ((∑ j, msk j * lg s j) - ∑ j, msk j * lp u s msk j) (∑ j, msk j)

/-- A finite sum of reals, taken in the extended reals, is the real sum. -/
theorem coe_sum {ι : Type} (t : Finset ι) (f : ι → ℝ) :
    ∑ j ∈ t, ((f j : ℝ) : EReal) = ((∑ j ∈ t, f j : ℝ) : EReal) := by
  classical
  induction t using Finset.induction_on with
  | empty => simp
  | insert a t ha ih => rw [Finset.sum_insert ha, Finset.sum_insert ha, ih, EReal.coe_add]

/-- The largest of finitely many (at least one) real scores is real: it is below `⊤` because every score is,
    and above `⊥` because some score is. -/
theorem top_real [Nonempty J] (s : J → EReal) (hs : ∀ j, ∃ r : ℝ, s j = (r : EReal)) :
    ∃ M : ℝ, top s = (M : EReal) := by
  have h1 : top s ≠ ⊤ := by
    apply ne_of_lt
    unfold top
    rw [Finset.fold_max_lt]
    refine ⟨bot_lt_top, fun j _ => ?_⟩
    obtain ⟨r, hr⟩ := hs j
    rw [hr]
    exact EReal.coe_lt_top r
  have h2 : top s ≠ ⊥ := by
    apply ne_of_gt
    unfold top
    rw [Finset.lt_fold_max]
    right
    obtain ⟨j⟩ := ‹Nonempty J›
    obtain ⟨r, hr⟩ := hs j
    exact ⟨j, Finset.mem_univ _, by rw [hr]; exact EReal.bot_lt_coe r⟩
  exact ⟨(top s).toReal, (EReal.coe_toReal h1 h2).symm⟩

/-- On real scores, a 0/1 mask and the literal one, the two arrangements of the numerator agree. -/
theorem kerRow_eq_refRow [Nonempty J] (u : EReal) (s msk : J → EReal) (hu : u = 1)
    (hs : ∀ j, ∃ r : ℝ, s j = (r : EReal)) (hm : ∀ j, msk j = 0 ∨ msk j = 1) :
    kerRow u s msk = refRow u s msk := by
  subst hu
  -- real witnesses: the scores `r`, their maximum `M`, the mask `m`
  obtain ⟨M, hM⟩ := top_real s hs
  choose r hr using hs
  have hlg : ∀ j, lg s j = ((r j - M : ℝ) : EReal) := fun j => by
    rw [lg, hr, hM, EReal.coe_sub]
  have hex : ∀ j, ex s j = ((Real.exp (r j - M) : ℝ) : EReal) := fun j => by
    rw [ex, hlg, Ideal.exp_coe]
  have hm' : ∀ j, ∃ m : ℝ, msk j = (m : EReal) ∧ (m = 0 ∨ m = 1) := fun j => by
    rcases hm j with h | h
    · exact ⟨0, by rw [h, EReal.coe_zero], Or.inl rfl⟩
    · exact ⟨1, by rw [h, EReal.coe_one], Or.inr rfl⟩
  choose m hmc hm01 using hm'
  -- the sum over the other labels is a nonnegative real
  have hneg : neg 1 s msk = ((∑ j, Real.exp (r j - M) * (1 - m j) : ℝ) : EReal) := by
    unfold neg
    rw [← coe_sum]
    refine Finset.sum_congr rfl fun j _ => ?_
    rw [hex, hmc, ← EReal.coe_one, ← EReal.coe_sub, ← EReal.coe_mul]
  have hN : 0 ≤ ∑ j, Real.exp (r j - M) * (1 - m j) :=
    Finset.sum_nonneg fun j _ => mul_nonneg (Real.exp_pos _).le (by rcases hm01 j with h | h <;> rw [h] <;> norm_num)
  -- so each logarithm is of a positive real
  have hlp : ∀ j, lp 1 s msk j
      = ((Real.log (Real.exp (r j - M) + ∑ j, Real.exp (r j - M) * (1 - m j)) : ℝ) : EReal) := fun j => by
    rw [lp, hex, hneg, ← EReal.coe_add, Ideal.log_coe,
      if_neg (not_le.2 (add_pos_of_pos_of_nonneg (Real.exp_pos _) hN))]
  -- the two numerators are one real number
  unfold kerRow refRow
  congr 1
  simp only [hlg, hlp, hmc, ← EReal.coe_sub, ← EReal.coe_mul, coe_sum]
  rw [← Finset.sum_sub_distrib]
  simp only [mul_sub]

variable {J' : Type} [Fintype J']

/-- The largest score does not depend on the order of the columns. -/
theorem top_comp (σ : J' ≃ J) (s : J → EReal) : top (fun j' => s (σ j')) = top s := by
  unfold top
  rw [← Finset.map_univ_equiv σ, Finset.fold_map]
  rfl

/-- The shifted score, -/
theorem lg_comp (σ : J' ≃ J) (s : J → EReal) (j' : J') : lg (fun j' => s (σ j')) j' = lg s (σ j') := by
  unfold lg; rw [top_comp]

/-- its exponential, -/
theorem ex_comp (σ : J' ≃ J) (s : J → EReal) (j' : J') : ex (fun j' => s (σ j')) j' = ex s (σ j') := by
  unfold ex; rw [lg_comp]

/-- the sum over the columns with another label -/
theorem neg_comp (σ : J' ≃ J) (u : EReal) (s msk : J → EReal) :
    neg u (fun j' => s (σ j')) (fun j' => msk (σ j')) = neg u s msk := by
  unfold neg
  simp only [ex_comp]
  exact Equiv.sum_comp σ (fun j => ex s j * (u - msk j))

/-- and the logarithm follow the columns. -/
theorem lp_comp (σ : J' ≃ J) (u : EReal) (s msk : J → EReal) (j' : J') :
    lp u (fun j' => s (σ j')) (fun j' => msk (σ j')) j' = lp u s msk (σ j') := by
  unfold lp; rw [ex_comp, neg_comp]

/-- Neither does the row's value, -/
theorem refRow_comp (σ : J' ≃ J) (u : EReal) (s msk : J → EReal) :
    refRow u (fun j' => s (σ j')) (fun j' => msk (σ j')) = refRow u s msk := by
  unfold refRow
  simp only [lg_comp, lp_comp]
  rw [Equiv.sum_comp σ (fun j => msk j * (lg s j - lp u s msk j)), Equiv.sum_comp σ msk]

/-- in either arrangement. -/
theorem kerRow_comp (σ : J' ≃ J) (u : EReal) (s msk : J → EReal) :
    kerRow u (fun j' => s (σ j')) (fun j' => msk (σ j')) = kerRow u s msk := by
  unfold kerRow
  simp only [lg_comp, lp_comp]
  rw [Equiv.sum_comp σ (fun j => msk j * lg s j), Equiv.sum_comp σ (fun j => msk j * lp u s msk j),
    Equiv.sum_comp σ msk]

end Row

/-! ## Eight chunks of 1024 columns -/

/-- Column `b` of chunk `j`. -/
def col (j : Fin 8) (b : Fin 1024) : Fin 8192 := ⟨j.val * 1024 + b.val, by omega⟩

/-- Every column is column `k % 1024` of chunk `k / 1024`. -/
theorem col_surj (k : Fin 8192) : ∃ (j : Fin 8) (b : Fin 1024), k = col j b :=
  ⟨⟨k.val / 1024, by omega⟩, ⟨k.val % 1024, by omega⟩, Fin.ext (by simp only [col]; omega)⟩

/-- A sum over the 8192 columns is the sum over the chunks of the sums over each chunk's columns:
    `(j, b) ↦ b + 1024 * j` is a bijection of `Fin 8 × Fin 1024` with `Fin 8192`, and it is `col`. -/
theorem sum_col (f : Fin 8192 → EReal) : ∑ k, f k = ∑ j : Fin 8, ∑ b : Fin 1024, f (col j b) := by
  have h : ∀ p : Fin 8 × Fin 1024, (finProdFinEquiv p : Fin 8192) = col p.1 p.2 := by
    rintro ⟨j, b⟩
    apply Fin.ext
    simp only [finProdFinEquiv, col, Equiv.coe_fn_mk]
    omega
  calc ∑ k, f k = ∑ p : Fin 8 × Fin 1024, f (finProdFinEquiv p : Fin 8192) :=
        (Equiv.sum_comp (finProdFinEquiv : Fin 8 × Fin 1024 ≃ Fin 8192) f).symm
    _ = ∑ p : Fin 8 × Fin 1024, f (col p.1 p.2) := by simp only [h]
    _ = ∑ j, ∑ b, f (col j b) := Fintype.sum_prod_type _

/-- A sum over the 8192 columns, accumulated chunk by chunk from zero. -/
theorem sum_chunks (f : Fin 8192 → EReal) :
    (0 + ∑ b, f (col 0 b)) + (∑ b, f (col 1 b)) + (∑ b, f (col 2 b)) + (∑ b, f (col 3 b)) + (∑ b, f (col 4 b))
      + (∑ b, f (col 5 b)) + (∑ b, f (col 6 b)) + (∑ b, f (col 7 b)) = ∑ k, f k := by
  rw [sum_col, Fin.sum_univ_eight, zero_add]

/-- The largest of 8192 scores, taken chunk by chunk from `⊥`. -/
theorem top_chunks (f : Fin 8192 → EReal) :
    max (max (max (max (max (max (max (max ⊥ (Finset.univ.fold max ⊥ fun b => f (col 0 b)))
      (Finset.univ.fold max ⊥ fun b => f (col 1 b))) (Finset.univ.fold max ⊥ fun b => f (col 2 b)))
      (Finset.univ.fold max ⊥ fun b => f (col 3 b))) (Finset.univ.fold max ⊥ fun b => f (col 4 b)))
      (Finset.univ.fold max ⊥ fun b => f (col 5 b))) (Finset.univ.fold max ⊥ fun b => f (col 6 b)))
      (Finset.univ.fold max ⊥ fun b => f (col 7 b)) = top f := by
  -- both sides have the same upper bounds: those of every `f (col j b)`, which are all the `f k`
  apply eq_of_forall_ge_iff
  intro c
  simp only [top, max_le_iff, Finset.fold_max_le, bot_le, true_and, Finset.mem_univ, forall_const]
  constructor
  · rintro ⟨⟨⟨⟨⟨⟨⟨h0, h1⟩, h2⟩, h3⟩, h4⟩, h5⟩, h6⟩, h7⟩ k
    obtain ⟨j, b, rfl⟩ := col_surj k
    fin_cases j
    · exact h0 b
    · exact h1 b
    · exact h2 b
    · exact h3 b
    · exact h4 b
    · exact h5 b
    · exact h6 b
    · exact h7 b
  · intro h
    exact ⟨⟨⟨⟨⟨⟨⟨fun b => h _, fun b => h _⟩, fun b => h _⟩, fun b => h _⟩, fun b => h _⟩, fun b => h _⟩,
      fun b => h _⟩, fun b => h _⟩

/-! ## The whole loss -/

/-- A row or column of the affinity matrix: a class slot and a view. -/
abbrev Pair := Fin 128 × Fin 64

/-- The inner product of two pairs' feature rows. -/
def dotOf (X : Fin 128 → Fin 64 → Fin 256 → EReal) (p q : Pair) : EReal := ∑ d : Fin 256, X p.1 p.2 d * X q.1 q.2 d
/-- One when two pairs' slots carry the same label, zero otherwise. -/
def same (y : Fin 128 → BitVec 32) (p q : Pair) : EReal := if y p.1 = y q.1 then 1 else 0

/-- The loss with the scores DIVIDED by `D` and the difference inside each row's sum. -/
def lossRef (D u n w : EReal) (X : Fin 128 → Fin 64 → Fin 256 → EReal) (y : Fin 128 → BitVec 32) : EReal :=
  w * Ideal.div (∑ p : Pair, refRow u (fun q => Ideal.div (dotOf X p q) D) (same y p)) n
/-- The loss with the scores MULTIPLIED by `κ` and the difference of each row's two sums. -/
def lossKer (κ u n w : EReal) (X : Fin 128 → Fin 64 → Fin 256 → EReal) (y : Fin 128 → BitVec 32) : EReal :=
  w * Ideal.div (∑ p : Pair, kerRow u (fun q => dotOf X p q * κ) (same y p)) n

/-- Where dividing by `D` is multiplying by the real `κ`, on real features the two losses are one number. -/
theorem lossKer_eq_lossRef (D κ u n w : EReal) (X : Fin 128 → Fin 64 → Fin 256 → EReal) (y : Fin 128 → BitVec 32)
    (hD : ∀ x : EReal, Ideal.div x D = x * κ) (hκ : ∃ r : ℝ, κ = (r : EReal)) (hu : u = 1)
    (hX : ∀ c v d, ∃ r : ℝ, X c v d = (r : EReal)) :
    lossKer κ u n w X y = lossRef D u n w X y := by
  obtain ⟨k, rfl⟩ := hκ
  choose x hx using hX
  unfold lossKer lossRef
  congr 2
  refine Finset.sum_congr rfl fun p _ => ?_
  simp only [hD]
  -- row by row: the scaled inner product is real, the mask is 0 or 1
  refine kerRow_eq_refRow u _ _ hu (fun q => ?_) (fun q => ?_)
  · refine ⟨(∑ d : Fin 256, x p.1 p.2 d * x q.1 q.2 d) * k, ?_⟩
    rw [dotOf, EReal.coe_mul, ← coe_sum]
    congr 1
    refine Finset.sum_congr rfl fun d _ => ?_
    rw [hx, hx, EReal.coe_mul]
  · unfold same
    split_ifs
    · exact Or.inr rfl
    · exact Or.inl rfl

/-! ## The argument arrays as functions of their coordinates, and the literals -/

/-- The feature array by (slot, view, feature). -/
def Xof (x : (⟨3, ![128, 64, 256]⟩ : Shape).Idx → EReal) : Fin 128 → Fin 64 → Fin 256 → EReal :=
  fun c v d => x (ValueIdx.ix3 c v d)
/-- The label array by slot. -/
def yof (l : (⟨1, ![128]⟩ : Shape).Idx → BitVec 32) : Fin 128 → BitVec 32 := fun c => l (ValueIdx.ix1 c)

/-- The literal one, -/
abbrev cOne : EReal := Ideal.ofBits .f32 0x3F800000#32
/-- the row count 8192, -/
abbrev cRows : EReal := Ideal.ofBits .f32 0x46000000#32
/-- the final scale, -/
abbrev cScale : EReal := Ideal.ofBits .f32 0xBFB6DB6E#32
/-- the temperature as its binary value 13421773/134217728, -/
abbrev cTemp : EReal := Ideal.ofBits .f32 0x3DCCCCCD#32
/-- and its exact reciprocal. -/
def cInvTemp : EReal := ((134217728 / 13421773 : ℝ) : EReal)

theorem cOne_eq : cOne = 1 := by
  show Ideal.ofBits .f32 0x3F800000#32 = 1
  simp [Ideal.ofBits, Ideal.ieee, -EReal.coe_mul]; norm_num

/-- The temperature's word: exponent field 123, fraction 5033165, so `(2^23 + 5033165) * 2^(123 - 127 - 23)`. -/
theorem cTemp_eq : cTemp = ((13421773 / 134217728 : ℝ) : EReal) := by
  show Ideal.ofBits .f32 0x3DCCCCCD#32 = _
  simp [Ideal.ofBits, Ideal.ieee, -EReal.coe_mul]; norm_num

/-- Dividing by the temperature's binary value is multiplying by its exact reciprocal, on every extended real. -/
theorem div_cTemp (x : EReal) : Ideal.div x cTemp = x * cInvTemp := by
  rw [cTemp_eq, Ideal.div_coe (by norm_num), cInvTemp]
  congr 2
  norm_num

end Cert.RowLoss

end
-- ==== Proof.Finite.lean ====
/-
  From the precondition to real numbers: where `finite_inputs` is all ones, every entry of the feature array is
  smaller in absolute value than `+∞`, so it is a real number.
-/
import proofs.«417502_j22436909154959_3_alg».proof.Pre_finite_inputs
import Idealize.ShloMosaic.PureOps.Ideal
import Idealize.ShloMosaic.Lib.ReduceAll
import Idealize.ShloMosaic.Lib.ValueIdx

noncomputable section

namespace Cert.Finite

open Idealize.ShloMosaic

theorem real_of_pre [hP : Cert.Pre_finite_inputs.Facts] (x : FVec Ideal Cert.Pre_finite_inputs.S128x64x256 .f32)
    (l : IVec Cert.Pre_finite_inputs.S128 32)
    (h : Cert.Pre_finite_inputs.fn (F := Ideal) x l = fun _ => 1#1) (i : Cert.Pre_finite_inputs.S128x64x256.Idx) :
    ∃ r : ℝ, x i = (r : EReal) := by
  -- A shape of rank zero has exactly one index.
  haveI : Subsingleton Cert.Pre_finite_inputs.S_.Idx := ⟨fun a b => funext fun d => d.elim0⟩
  -- The predicate at its one index: the conjunction over all three axes of `|x j| < +∞` is 1 ...
  have h0 := congrFun h ValueIdx.ix0
  dsimp only [Cert.Pre_finite_inputs.fn] at h0
  -- ... so each conjunct is 1, in particular the one at `i`.
  have hi := Host.reduce_andi_all _ _ _ _ _ h0 i
  -- The word 0x7F800000 has sign 0, exponent all ones and fraction 0: it denotes `+∞`.
  have htop : Ideal.ofBits .f32 0x7F800000#32 = (⊤ : EReal) := by simp [Ideal.ofBits, Ideal.ieee]
  -- The comparison at `i` being 1 says `max (x i) (-(x i)) < ⊤`.
  have hlt : max (x i) (-(x i)) < (⊤ : EReal) := by
    have hi' : Ideal.cmp .olt (max (x i) (-(x i))) (Ideal.ofBits .f32 0x7F800000#32) = 1#1 := hi
    rw [htop] at hi'
    have hb : decide (max (x i) (-(x i)) < (⊤ : EReal)) = true :=
      (BitVec.ofBool_eq_iff_eq (b' := true)).1 hi'
    exact of_decide_eq_true hb
  -- An extended real is `⊥`, a real or `⊤`; at `⊥` and at `⊤` the maximum of it and its negation is `⊤`.
  generalize x i = y at hlt ⊢
  induction y using EReal.rec with
  | bot => simp at hlt
  | coe r => exact ⟨r, rfl⟩
  | top => simp at hlt

end Cert.Finite

end
-- ==== Proof.TileDef.lean ====
/-
  The value one grid point leaves in its output block, as ONE structured function of the tile's query rows `q`, its
  row labels `lab`, the eight key chunks `k j` and the eight column-label chunks `col j`: the running row maximum over
  the chunks' scaled scores; the shifted scores and their exponentials; the three row sums of the second pass; the
  log-correction sum of the third; and the final quotient.
-/
import proofs.«417502_j22436909154959_3_alg».proof.Proof.Gen.KernelIdeal.Skeleton

set_option maxRecDepth 16384

noncomputable section

namespace Cert.KernelIdeal.Tile

open Idealize.ShloMosaic Idealize.ShloMosaic.TcCoe Idealize.SL.Sem Cert.KernelIdeal Cert.KernelIdeal.Gen

variable {F : FTy → Type} [FloatOps F] [Named F]

/-- The scaled scores of the tile's rows against one chunk of 1024 keys: the contraction over the feature axis into a
    zero accumulator, times the named reciprocal temperature. -/
def score (q : FVec F S512x256 .bf16) (k : Vec F S1024x256 .bf16) : FVec F S512x1024 .f32 := k0_pay9 q k
/-- A chunk as it is stored in the scratch (a cast to its own shape). -/
def keep (x : FVec F S512x1024 .f32) : FVec F S512x1024 .f32 := shapeCast S512x1024 x shapeCasts_S512x1024_S512x1024
/-- The row-wise maximum of a chunk, as a column. -/
def rowMax (x : FVec F S512x1024 .f32) : FVec F S512x1 .f32 :=
  shapeCast S512x1 (multiReduction .maximumf [1] S512 x 0xFF800000#32 reduces_S512x1024_S512 (.inl rfl) rfl) shapeCasts_S512_S512x1
/-- The row-wise sum of a chunk, as a column. -/
def rowSum (x : FVec F S512x1024 .f32) : FVec F S512x1 .f32 :=
  shapeCast S512x1 (multiReduction .add [1] S512 x 0x00000000#32 reduces_S512x1024_S512 (.inl rfl) rfl) shapeCasts_S512_S512x1
/-- The column of `-∞` the running maximum starts from, -/
def negInfCol : FVec F S512x1 .f32 := broadcast S512x1 (Scalar.ofBits .f32 0xFF800000#32)
/-- and the column of zeros every running sum starts from. -/
def zeroCol : FVec F S512x1 .f32 := broadcast S512x1 (Scalar.ofBits .f32 0x00000000#32)
/-- The 0/1 mask of a chunk: the tile's row label against the chunk's column labels. -/
def maskOf (lab : IVec S512x1 32) (col : Vec F S1x1024 .i32) : FVec F S512x1024 .f32 := k0_pay26 lab col
/-- A chunk's scores less the row maximum, -/
def lgOf (m : FVec F S512x1 .f32) (s : Vec F S512x1024 .f32) : FVec F S512x1024 .f32 := k0_pay33 m s
/-- and their exponentials. -/
def exOf (m : FVec F S512x1 .f32) (s : Vec F S512x1024 .f32) : FVec F S512x1024 .f32 := k0_pay34 m s
/-- One minus a mask. -/
def others (msk : FVec F S512x1024 .f32) : FVec F S512x1024 .f32 :=
  subf (broadcast S512x1024 (Scalar.ofBits .f32 0x3F800000#32)) msk
/-- The logarithm of a chunk's exponentials plus the row's sum over the other labels. -/
def lpOf (n : FVec F S512x1 .f32) (e : Vec F S512x1024 .f32) : FVec F S512x1024 .f32 :=
  log (addf e (broadcastTo S512x1024 n broadcasts_S512x1_S512x1024))

/-- A step taken over the eight chunks in order. -/
def over8 {α : Type} (a : α) (step : α → Fin 8 → α) : α :=
  step (step (step (step (step (step (step (step a 0) 1) 2) 3) 4) 5) 6) 7

/-- The row maximum over all eight chunks. -/
def mFinal (q : FVec F S512x256 .bf16) (k : Fin 8 → Vec F S1024x256 .bf16) : FVec F S512x1 .f32 :=
  over8 negInfCol fun a j => maximumf a (rowMax (score q (k j)))

/-- The block the grid point stores. -/
def tileOf (q : FVec F S512x256 .bf16) (lab : IVec S512x1 32) (k : Fin 8 → Vec F S1024x256 .bf16)
    (col : Fin 8 → Vec F S1x1024 .i32) : FVec F S512x1 .f32 :=
  let m := mFinal q k
  let s := fun j => keep (score q (k j))
  let msk := fun j => maskOf lab (col j)
  let negF := over8 zeroCol fun a j => addf a (rowSum (mulf (exOf m (s j)) (others (msk j))))
  let posF := over8 zeroCol fun a j => addf a (rowSum (mulf (msk j) (lgOf m (s j))))
  let cntF := over8 zeroCol fun a j => addf a (rowSum (msk j))
  let corF := over8 zeroCol fun a j => addf a (rowSum (mulf (msk j) (lpOf negF (keep (exOf m (s j))))))
  divf (subf posF corF) cntF

end Cert.KernelIdeal.Tile

end
-- ==== Proof.TileLoads.lean ====
/-
  What the kernel body loads of its arguments at a grid point, read at an index: the tile's 512 query rows are rows
  `512 * i + p` of the feature array; chunk `j`'s 1024 key rows are rows `1024 * j + b`; chunk `j`'s 1024 column labels
  are columns `1024 * j + b` of the label row; the tile's row labels are the label block whole.
-/
import proofs.«417502_j22436909154959_3_alg».proof.Proof.Gen.KernelIdeal.Frame
import proofs.«417502_j22436909154959_3_alg».proof.Proof.RowLoss
import Idealize.ShloMosaic.Lib.ValueIdx
import Idealize.ShloMosaic.Lib.Pipeline.Value

set_option maxRecDepth 16384

noncomputable section

namespace Cert.KernelIdeal.Tile

open Idealize.ShloMosaic Idealize.ShloMosaic.TcCoe Idealize.SL.Sem Cert.KernelIdeal Cert.KernelIdeal.Gen ValueIdx

variable {F : FTy → Type} [FloatOps F] [Named F]

/-- Row `p` of the tile at grid coordinate `i`, as a row of the 8192-row arrays. -/
def rowOf (i : grid0.Coords) (p : Fin 512) : Fin 8192 :=
  ⟨(i 0).val * 512 + p.val, by have h : (i 0).val < 16 := (i 0).isLt; omega⟩

/-- Chunk `j`'s key rows lie inside the feature array, -/
theorem inbK (j : Fin 8) : ∀ a, (![1024 * j.val, 0] : Fin 2 → Nat) a + S1024x256.size a ≤ S8192x256.size a := by
  intro a; have := j.isLt
  match a with
  | ⟨0, _⟩ => show 1024 * j.val + 1024 ≤ 8192; omega
  | ⟨1, _⟩ => show 0 + 256 ≤ 256; omega
/-- and its column labels inside the label row. -/
theorem inbC (j : Fin 8) : ∀ a, (![0, 1024 * j.val] : Fin 2 → Nat) a + S1x1024.size a ≤ S1x8192.size a := by
  intro a; have := j.isLt
  match a with
  | ⟨0, _⟩ => show 0 + 1 ≤ 1; omega
  | ⟨1, _⟩ => show 1024 * j.val + 1024 ≤ 8192; omega

/-- The tile's 512 query rows, -/
abbrev ldQ (i : grid0.Coords) (arg1 : Memref sig .tc .vmem S8192x256 .bf16) (harg1 : arg1.IsWhole) (x0 : Vec F S8192x256 .bf16) :
    Vec F S512x256 .bf16 :=
  View.readAt (Elt F) arg1.view (Rect.unit (s := S8192x256) (k0_off1 i) S512x256.size (k0_off1_inb i)).toLoadRect (harg1.unread x0)
/-- its row labels, -/
abbrev ldL (arg2 : Memref sig .tc .vmem S512x1 .i32) (harg2 : arg2.IsWhole) (x1 : Vec F S512x1 .i32) : Vec F S512x1 .i32 :=
  View.readAt (Elt F) arg2.view (Rect.unit (s := S512x1) ![0, 0] S512x1.size inb_S512x1_S512x1_0_0).toLoadRect (harg2.unread x1)
/-- the 1024 key rows from row `o`, -/
abbrev ldK (o : Nat) (h : ∀ a, (![o, 0] : Fin 2 → Nat) a + S1024x256.size a ≤ S8192x256.size a)
    (arg1 : Memref sig .tc .vmem S8192x256 .bf16) (harg1 : arg1.IsWhole) (x0 : Vec F S8192x256 .bf16) : Vec F S1024x256 .bf16 :=
  View.readAt (Elt F) arg1.view (Rect.unit (s := S8192x256) ![o, 0] S1024x256.size h).toLoadRect (harg1.unread x0)
/-- and the 1024 column labels from column `o`. -/
abbrev ldC (o : Nat) (h : ∀ a, (![0, o] : Fin 2 → Nat) a + S1x1024.size a ≤ S1x8192.size a)
    (arg3 : Memref sig .tc .vmem S1x8192 .i32) (harg3 : arg3.IsWhole) (x2 : Vec F S1x8192 .i32) : Vec F S1x1024 .i32 :=
  View.readAt (Elt F) arg3.view (Rect.unit (s := S1x8192) ![0, o] S1x1024.size h).toLoadRect (harg3.unread x2)

/-- The queries (a cast of the load to its own shape) are the tile's rows of the feature array. -/
theorem q_at (i : grid0.Coords) (arg1 : Memref sig .tc .vmem S8192x256 .bf16) (harg1 : arg1.IsWhole) (x0 : Vec F S8192x256 .bf16)
    (p : Fin 512) (d : Fin 256) : k0_pay2 (ldQ i arg1 harg1 x0) (ix2 p d) = x0 (ix2 (rowOf i p) d) := by
  -- A cast to the same shape is the identity; the load reads the array at the rectangle's indices.
  unfold k0_pay2
  rw [shapeCast_self]
  show View.ld (arg1.view.read (Elt F) (harg1.unread x0))
      (Rect.unit (s := S8192x256) (k0_off1 i) S512x256.size (k0_off1_inb i)) (ix2 p d) = _
  rw [harg1.read_unread]
  refine congrArg x0 (funext fun a => Fin.ext ?_)
  -- The rectangle starts at row `512 * i`, column 0, with unit strides.
  match a with
  | ⟨0, _⟩ =>
    show k0_off1 i 0 + 1 * p.val = (i 0).val * 512 + p.val
    rw [k0_off1_eq]
    show 512 * (i 0).val + 1 * p.val = (i 0).val * 512 + p.val
    omega
  | ⟨1, _⟩ =>
    show k0_off1 i 1 + 1 * d.val = d.val
    rw [k0_off1_eq]
    show 0 + 1 * d.val = d.val
    omega

/-- The row labels (a cast of the load to its own shape) are the label block. -/
theorem lab_at (arg2 : Memref sig .tc .vmem S512x1 .i32) (harg2 : arg2.IsWhole) (x1 : Vec F S512x1 .i32) (p : Fin 512) :
    k0_pay3 (ldL arg2 harg2 x1) (ix2 p (0 : Fin 1)) = x1 (ix2 p (0 : Fin 1)) := by
  -- A cast to the same shape is the identity; the rectangle is the whole block, from (0, 0) with unit strides.
  unfold k0_pay3
  rw [shapeCast_self]
  show View.ld (arg2.view.read (Elt F) (harg2.unread x1))
      (Rect.unit (s := S512x1) ![0, 0] S512x1.size inb_S512x1_S512x1_0_0) (ix2 p (0 : Fin 1)) = _
  rw [harg2.read_unread]
  refine congrArg x1 (funext fun a => Fin.ext ?_)
  match a with
  | ⟨0, _⟩ => show 0 + 1 * p.val = p.val; omega
  | ⟨1, _⟩ => show 0 + 1 * (0 : Fin 1).val = (0 : Fin 1).val; omega

/-- Chunk `j`'s keys are rows `1024 * j + b` of the feature array. -/
theorem k_at (j : Fin 8) (arg1 : Memref sig .tc .vmem S8192x256 .bf16) (harg1 : arg1.IsWhole) (x0 : Vec F S8192x256 .bf16)
    (b : Fin 1024) (d : Fin 256) : ldK (1024 * j.val) (inbK j) arg1 harg1 x0 (ix2 b d) = x0 (ix2 (RowLoss.col j b) d) := by
  -- The load reads the array at the rectangle's indices: from row `1024 * j`, column 0, with unit strides.
  show View.ld (arg1.view.read (Elt F) (harg1.unread x0))
      (Rect.unit (s := S8192x256) ![1024 * j.val, 0] S1024x256.size (inbK j)) (ix2 b d) = _
  rw [harg1.read_unread]
  refine congrArg x0 (funext fun a => Fin.ext ?_)
  match a with
  | ⟨0, _⟩ => show 1024 * j.val + 1 * b.val = j.val * 1024 + b.val; omega
  | ⟨1, _⟩ => show 0 + 1 * d.val = d.val; omega

/-- Chunk `j`'s column labels are columns `1024 * j + b` of the label row. -/
theorem col_at (j : Fin 8) (arg3 : Memref sig .tc .vmem S1x8192 .i32) (harg3 : arg3.IsWhole) (x2 : Vec F S1x8192 .i32)
    (b : Fin 1024) : ldC (1024 * j.val) (inbC j) arg3 harg3 x2 (ix2 (0 : Fin 1) b) = x2 (ix2 (0 : Fin 1) (RowLoss.col j b)) := by
  -- The load reads the label row at the rectangle's indices: from row 0, column `1024 * j`, with unit strides.
  show View.ld (arg3.view.read (Elt F) (harg3.unread x2))
      (Rect.unit (s := S1x8192) ![0, 1024 * j.val] S1x1024.size (inbC j)) (ix2 (0 : Fin 1) b) = _
  rw [harg3.read_unread]
  refine congrArg x2 (funext fun a => Fin.ext ?_)
  match a with
  | ⟨0, _⟩ => show 0 + 1 * (0 : Fin 1).val = (0 : Fin 1).val; omega
  | ⟨1, _⟩ => show 1024 * j.val + 1 * b.val = j.val * 1024 + b.val; omega

end Cert.KernelIdeal.Tile

end
-- ==== Proof.TilePiece.lean ====
/-
  The block a grid point's run leaves in its output buffer is `tileOf` of what the body loads: the tile's 512 rows of
  the feature array as queries, the tile's row labels, and for each of the eight chunks its 1024 rows of the feature
  array as keys and its 1024 column labels. Every load of the scratch reads the chunk the latest store left there:
  in the second pass the first pass's scores, in the third the second pass's exponentials.
-/
import proofs.«417502_j22436909154959_3_alg».proof.Proof.Gen.KernelIdeal.Frame
import proofs.«417502_j22436909154959_3_alg».proof.Proof.RowLoss
import proofs.«417502_j22436909154959_3_alg».proof.Proof.TileLoads
import proofs.«417502_j22436909154959_3_alg».proof.Proof.TileDef
import Idealize.ShloMosaic.Lib.ValueIdx
import Idealize.ShloMosaic.Lib.Pipeline.Value

set_option maxRecDepth 16384

noncomputable section

namespace Cert.KernelIdeal.Tile

open Idealize.ShloMosaic Idealize.ShloMosaic.TcCoe Idealize.SL.Sem Cert.KernelIdeal Cert.KernelIdeal.Gen ValueIdx

variable {F : FTy → Type} [FloatOps F] [Named F]

/-! ## The scratch, chunk by chunk

The scratch holds eight chunks of 1024 columns; a store writes one chunk whole. A load of chunk `b` after a store of
another chunk `a` reads what was there before that store; after a store of chunk `b` itself it reads that store's
payload. -/

/-- A load of one column chunk passes over a later store of another. -/
theorem readCov_skip_chunk (v : View sig .tc .vmem S512x8192 .f32) (a b : Nat)
    (ha : ∀ x, (![0, a] : Fin 2 → Nat) x + S512x1024.size x ≤ S512x8192.size x)
    (hb : ∀ x, (![0, b] : Fin 2 → Nat) x + S512x1024.size x ≤ S512x8192.size x)
    (w : (Rect.unit (s := S512x8192) ![0, a] S512x1024.size ha).shape.Idx → Elt F .f32)
    (L : List (View.Piece (Elt F) S512x8192 .f32)) (hab : a + 1024 ≤ b ∨ b + 1024 ≤ a) :
    v.readCov (⟨Rect.unit (s := S512x8192) ![0, a] S512x1024.size ha, w⟩ :: L) (Rect.unit (s := S512x8192) ![0, b] S512x1024.size hb).toLoadRect
      = v.readCov L (Rect.unit (s := S512x8192) ![0, b] S512x1024.size hb).toLoadRect := by
  refine View.readCov_cons_of_disjoint _ _ _ _ (LoadRect.disjoint_of_separated _ _ 1 ?_)
  rcases hab with h | h
  · left; right; show a + 1 * (1024 - 1) < b; omega
  · right; right; show b + 1 * (1024 - 1) < a; omega

/-! ## What each load of the scratch reads -/

theorem v137_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v137 c i arg1 harg1 arg5 x0 = k0_pay5 (ldQ i arg1 harg1 x0) (ldK 0 (by decide) arg1 harg1 x0) := by
  unfold kernelRun0_A.sl.v137 kernelRun0_A.sl.HS0_8
  refine (readCov_skip_chunk _ 7168 0 _ _ _ _ (Or.inr (by decide))).trans ?_
  refine (readCov_skip_chunk _ 6144 0 _ _ _ _ (Or.inr (by decide))).trans ?_
  refine (readCov_skip_chunk _ 5120 0 _ _ _ _ (Or.inr (by decide))).trans ?_
  refine (readCov_skip_chunk _ 4096 0 _ _ _ _ (Or.inr (by decide))).trans ?_
  refine (readCov_skip_chunk _ 3072 0 _ _ _ _ (Or.inr (by decide))).trans ?_
  refine (readCov_skip_chunk _ 2048 0 _ _ _ _ (Or.inr (by decide))).trans ?_
  refine (readCov_skip_chunk _ 1024 0 _ _ _ _ (Or.inr (by decide))).trans ?_
  exact View.readCov_cons_toLoadRect _ _ _ _

theorem v169_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v169 c i arg1 harg1 arg5 x0 = k0_pay7 (ldQ i arg1 harg1 x0) (ldK 1024 (by decide) arg1 harg1 x0) := by
  unfold kernelRun0_A.sl.v169 kernelRun0_A.sl.HS0_9 kernelRun0_A.sl.HS0_8
  refine (readCov_skip_chunk _ 0 1024 _ _ _ _ (Or.inl (by decide))).trans ?_
  refine (readCov_skip_chunk _ 7168 1024 _ _ _ _ (Or.inr (by decide))).trans ?_
  refine (readCov_skip_chunk _ 6144 1024 _ _ _ _ (Or.inr (by decide))).trans ?_
  refine (readCov_skip_chunk _ 5120 1024 _ _ _ _ (Or.inr (by decide))).trans ?_
  refine (readCov_skip_chunk _ 4096 1024 _ _ _ _ (Or.inr (by decide))).trans ?_
  refine (readCov_skip_chunk _ 3072 1024 _ _ _ _ (Or.inr (by decide))).trans ?_
  refine (readCov_skip_chunk _ 2048 1024 _ _ _ _ (Or.inr (by decide))).trans ?_
  exact View.readCov_cons_toLoadRect _ _ _ _

theorem v201_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v201 c i arg1 harg1 arg5 x0 = k0_pay10 (kernelRun0_A.sl.r c i arg1 harg1 x0) (ldK 2048 (by decide) arg1 harg1 x0) := by
  unfold kernelRun0_A.sl.v201 kernelRun0_A.sl.HS0_10 kernelRun0_A.sl.HS0_9 kernelRun0_A.sl.HS0_8
  refine (readCov_skip_chunk _ 1024 2048 _ _ _ _ (Or.inl (by decide))).trans ?_
  refine (readCov_skip_chunk _ 0 2048 _ _ _ _ (Or.inl (by decide))).trans ?_
  refine (readCov_skip_chunk _ 7168 2048 _ _ _ _ (Or.inr (by decide))).trans ?_
  refine (readCov_skip_chunk _ 6144 2048 _ _ _ _ (Or.inr (by decide))).trans ?_
  refine (readCov_skip_chunk _ 5120 2048 _ _ _ _ (Or.inr (by decide))).trans ?_
  refine (readCov_skip_chunk _ 4096 2048 _ _ _ _ (Or.inr (by decide))).trans ?_
  refine (readCov_skip_chunk _ 3072 2048 _ _ _ _ (Or.inr (by decide))).trans ?_
  exact View.readCov_cons_toLoadRect _ _ _ _

theorem v233_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v233 c i arg1 harg1 arg5 x0 = k0_pay12 (kernelRun0_A.sl.r c i arg1 harg1 x0) (ldK 3072 (by decide) arg1 harg1 x0) := by
  unfold kernelRun0_A.sl.v233 kernelRun0_A.sl.HS0_11 kernelRun0_A.sl.HS0_10 kernelRun0_A.sl.HS0_9 kernelRun0_A.sl.HS0_8
  refine (readCov_skip_chunk _ 2048 3072 _ _ _ _ (Or.inl (by decide))).trans ?_
  refine (readCov_skip_chunk _ 1024 3072 _ _ _ _ (Or.inl (by decide))).trans ?_
  refine (readCov_skip_chunk _ 0 3072 _ _ _ _ (Or.inl (by decide))).trans ?_
  refine (readCov_skip_chunk _ 7168 3072 _ _ _ _ (Or.inr (by decide))).trans ?_
  refine (readCov_skip_chunk _ 6144 3072 _ _ _ _ (Or.inr (by decide))).trans ?_
  refine (readCov_skip_chunk _ 5120 3072 _ _ _ _ (Or.inr (by decide))).trans ?_
  refine (readCov_skip_chunk _ 4096 3072 _ _ _ _ (Or.inr (by decide))).trans ?_
  exact View.readCov_cons_toLoadRect _ _ _ _

theorem v265_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v265 c i arg1 harg1 arg5 x0 = k0_pay15 (kernelRun0_A.sl.r_4 c i arg1 harg1 x0) := by
  unfold kernelRun0_A.sl.v265 kernelRun0_A.sl.HS0_12 kernelRun0_A.sl.HS0_11 kernelRun0_A.sl.HS0_10 kernelRun0_A.sl.HS0_9 kernelRun0_A.sl.HS0_8
  refine (readCov_skip_chunk _ 3072 4096 _ _ _ _ (Or.inl (by decide))).trans ?_
  refine (readCov_skip_chunk _ 2048 4096 _ _ _ _ (Or.inl (by decide))).trans ?_
  refine (readCov_skip_chunk _ 1024 4096 _ _ _ _ (Or.inl (by decide))).trans ?_
  refine (readCov_skip_chunk _ 0 4096 _ _ _ _ (Or.inl (by decide))).trans ?_
  refine (readCov_skip_chunk _ 7168 4096 _ _ _ _ (Or.inr (by decide))).trans ?_
  refine (readCov_skip_chunk _ 6144 4096 _ _ _ _ (Or.inr (by decide))).trans ?_
  refine (readCov_skip_chunk _ 5120 4096 _ _ _ _ (Or.inr (by decide))).trans ?_
  exact View.readCov_cons_toLoadRect _ _ _ _

theorem v297_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v297 c i arg1 harg1 arg5 x0 = k0_pay17 (kernelRun0_A.sl.r c i arg1 harg1 x0) (ldK 5120 (by decide) arg1 harg1 x0) := by
  unfold kernelRun0_A.sl.v297 kernelRun0_A.sl.HS0_13 kernelRun0_A.sl.HS0_12 kernelRun0_A.sl.HS0_11 kernelRun0_A.sl.HS0_10 kernelRun0_A.sl.HS0_9 kernelRun0_A.sl.HS0_8
  refine (readCov_skip_chunk _ 4096 5120 _ _ _ _ (Or.inl (by decide))).trans ?_
  refine (readCov_skip_chunk _ 3072 5120 _ _ _ _ (Or.inl (by decide))).trans ?_
  refine (readCov_skip_chunk _ 2048 5120 _ _ _ _ (Or.inl (by decide))).trans ?_
  refine (readCov_skip_chunk _ 1024 5120 _ _ _ _ (Or.inl (by decide))).trans ?_
  refine (readCov_skip_chunk _ 0 5120 _ _ _ _ (Or.inl (by decide))).trans ?_
  refine (readCov_skip_chunk _ 7168 5120 _ _ _ _ (Or.inr (by decide))).trans ?_
  refine (readCov_skip_chunk _ 6144 5120 _ _ _ _ (Or.inr (by decide))).trans ?_
  exact View.readCov_cons_toLoadRect _ _ _ _

theorem v329_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v329 c i arg1 harg1 arg5 x0 = k0_pay19 (kernelRun0_A.sl.r c i arg1 harg1 x0) (ldK 6144 (by decide) arg1 harg1 x0) := by
  unfold kernelRun0_A.sl.v329 kernelRun0_A.sl.HS0_14 kernelRun0_A.sl.HS0_13 kernelRun0_A.sl.HS0_12 kernelRun0_A.sl.HS0_11 kernelRun0_A.sl.HS0_10 kernelRun0_A.sl.HS0_9 kernelRun0_A.sl.HS0_8
  refine (readCov_skip_chunk _ 5120 6144 _ _ _ _ (Or.inl (by decide))).trans ?_
  refine (readCov_skip_chunk _ 4096 6144 _ _ _ _ (Or.inl (by decide))).trans ?_
  refine (readCov_skip_chunk _ 3072 6144 _ _ _ _ (Or.inl (by decide))).trans ?_
  refine (readCov_skip_chunk _ 2048 6144 _ _ _ _ (Or.inl (by decide))).trans ?_
  refine (readCov_skip_chunk _ 1024 6144 _ _ _ _ (Or.inl (by decide))).trans ?_
  refine (readCov_skip_chunk _ 0 6144 _ _ _ _ (Or.inl (by decide))).trans ?_
  refine (readCov_skip_chunk _ 7168 6144 _ _ _ _ (Or.inr (by decide))).trans ?_
  exact View.readCov_cons_toLoadRect _ _ _ _

theorem v361_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v361 c i arg1 harg1 arg5 x0 = k0_pay22 (kernelRun0_A.sl.r c i arg1 harg1 x0) (ldK 7168 (by decide) arg1 harg1 x0) := by
  unfold kernelRun0_A.sl.v361 kernelRun0_A.sl.HS0_15 kernelRun0_A.sl.HS0_14 kernelRun0_A.sl.HS0_13 kernelRun0_A.sl.HS0_12 kernelRun0_A.sl.HS0_11 kernelRun0_A.sl.HS0_10 kernelRun0_A.sl.HS0_9 kernelRun0_A.sl.HS0_8
  refine (readCov_skip_chunk _ 6144 7168 _ _ _ _ (Or.inl (by decide))).trans ?_
  refine (readCov_skip_chunk _ 5120 7168 _ _ _ _ (Or.inl (by decide))).trans ?_
  refine (readCov_skip_chunk _ 4096 7168 _ _ _ _ (Or.inl (by decide))).trans ?_
  refine (readCov_skip_chunk _ 3072 7168 _ _ _ _ (Or.inl (by decide))).trans ?_
  refine (readCov_skip_chunk _ 2048 7168 _ _ _ _ (Or.inl (by decide))).trans ?_
  refine (readCov_skip_chunk _ 1024 7168 _ _ _ _ (Or.inl (by decide))).trans ?_
  refine (readCov_skip_chunk _ 0 7168 _ _ _ _ (Or.inl (by decide))).trans ?_
  exact View.readCov_cons_toLoadRect _ _ _ _

theorem v394_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v394 c i arg1 harg1 arg5 x0 = k0_pay29 (kernelRun0_A.sl.r c i arg1 harg1 x0) (kernelRun0_A.sl.r_5 c i arg1 harg1 x0) (ldK 7168 (by decide) arg1 harg1 x0) (kernelRun0_A.sl.v137 c i arg1 harg1 arg5 x0) := by
  unfold kernelRun0_A.sl.v394 kernelRun0_A.sl.HS0_16 kernelRun0_A.sl.HS0_15 kernelRun0_A.sl.HS0_14 kernelRun0_A.sl.HS0_13 kernelRun0_A.sl.HS0_12 kernelRun0_A.sl.HS0_11 kernelRun0_A.sl.HS0_10 kernelRun0_A.sl.HS0_9
  refine (readCov_skip_chunk _ 7168 0 _ _ _ _ (Or.inr (by decide))).trans ?_
  refine (readCov_skip_chunk _ 6144 0 _ _ _ _ (Or.inr (by decide))).trans ?_
  refine (readCov_skip_chunk _ 5120 0 _ _ _ _ (Or.inr (by decide))).trans ?_
  refine (readCov_skip_chunk _ 4096 0 _ _ _ _ (Or.inr (by decide))).trans ?_
  refine (readCov_skip_chunk _ 3072 0 _ _ _ _ (Or.inr (by decide))).trans ?_
  refine (readCov_skip_chunk _ 2048 0 _ _ _ _ (Or.inr (by decide))).trans ?_
  refine (readCov_skip_chunk _ 1024 0 _ _ _ _ (Or.inr (by decide))).trans ?_
  exact View.readCov_cons_toLoadRect _ _ _ _

theorem v413_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v413 c i arg1 harg1 arg5 x0 = k0_pay35 (kernelRun0_A.sl.r_6 c i arg1 harg1 x0) (kernelRun0_A.sl.v169 c i arg1 harg1 arg5 x0) := by
  unfold kernelRun0_A.sl.v413 kernelRun0_A.sl.HS0_16 kernelRun0_A.sl.HS0_15 kernelRun0_A.sl.HS0_14 kernelRun0_A.sl.HS0_13 kernelRun0_A.sl.HS0_12 kernelRun0_A.sl.HS0_11 kernelRun0_A.sl.HS0_10
  refine (readCov_skip_chunk _ 7168 1024 _ _ _ _ (Or.inr (by decide))).trans ?_
  refine (readCov_skip_chunk _ 6144 1024 _ _ _ _ (Or.inr (by decide))).trans ?_
  refine (readCov_skip_chunk _ 5120 1024 _ _ _ _ (Or.inr (by decide))).trans ?_
  refine (readCov_skip_chunk _ 4096 1024 _ _ _ _ (Or.inr (by decide))).trans ?_
  refine (readCov_skip_chunk _ 3072 1024 _ _ _ _ (Or.inr (by decide))).trans ?_
  refine (readCov_skip_chunk _ 2048 1024 _ _ _ _ (Or.inr (by decide))).trans ?_
  exact View.readCov_cons_toLoadRect _ _ _ _

theorem v432_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v432 c i arg1 harg1 arg5 x0 = k0_pay43 (kernelRun0_A.sl.r_6 c i arg1 harg1 x0) (kernelRun0_A.sl.v201 c i arg1 harg1 arg5 x0) := by
  unfold kernelRun0_A.sl.v432 kernelRun0_A.sl.HS0_16 kernelRun0_A.sl.HS0_15 kernelRun0_A.sl.HS0_14 kernelRun0_A.sl.HS0_13 kernelRun0_A.sl.HS0_12 kernelRun0_A.sl.HS0_11
  refine (readCov_skip_chunk _ 7168 2048 _ _ _ _ (Or.inr (by decide))).trans ?_
  refine (readCov_skip_chunk _ 6144 2048 _ _ _ _ (Or.inr (by decide))).trans ?_
  refine (readCov_skip_chunk _ 5120 2048 _ _ _ _ (Or.inr (by decide))).trans ?_
  refine (readCov_skip_chunk _ 4096 2048 _ _ _ _ (Or.inr (by decide))).trans ?_
  refine (readCov_skip_chunk _ 3072 2048 _ _ _ _ (Or.inr (by decide))).trans ?_
  exact View.readCov_cons_toLoadRect _ _ _ _

theorem v451_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v451 c i arg1 harg1 arg5 x0 = k0_pay50 (kernelRun0_A.sl.r_6 c i arg1 harg1 x0) (kernelRun0_A.sl.v233 c i arg1 harg1 arg5 x0) := by
  unfold kernelRun0_A.sl.v451 kernelRun0_A.sl.HS0_16 kernelRun0_A.sl.HS0_15 kernelRun0_A.sl.HS0_14 kernelRun0_A.sl.HS0_13 kernelRun0_A.sl.HS0_12
  refine (readCov_skip_chunk _ 7168 3072 _ _ _ _ (Or.inr (by decide))).trans ?_
  refine (readCov_skip_chunk _ 6144 3072 _ _ _ _ (Or.inr (by decide))).trans ?_
  refine (readCov_skip_chunk _ 5120 3072 _ _ _ _ (Or.inr (by decide))).trans ?_
  refine (readCov_skip_chunk _ 4096 3072 _ _ _ _ (Or.inr (by decide))).trans ?_
  exact View.readCov_cons_toLoadRect _ _ _ _

theorem v470_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v470 c i arg1 harg1 arg5 x0 = k0_pay55 (kernelRun0_A.sl.r_6 c i arg1 harg1 x0) (kernelRun0_A.sl.v265 c i arg1 harg1 arg5 x0) := by
  unfold kernelRun0_A.sl.v470 kernelRun0_A.sl.HS0_16 kernelRun0_A.sl.HS0_15 kernelRun0_A.sl.HS0_14 kernelRun0_A.sl.HS0_13
  refine (readCov_skip_chunk _ 7168 4096 _ _ _ _ (Or.inr (by decide))).trans ?_
  refine (readCov_skip_chunk _ 6144 4096 _ _ _ _ (Or.inr (by decide))).trans ?_
  refine (readCov_skip_chunk _ 5120 4096 _ _ _ _ (Or.inr (by decide))).trans ?_
  exact View.readCov_cons_toLoadRect _ _ _ _

theorem v489_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v489 c i arg1 harg1 arg5 x0 = k0_pay62 (kernelRun0_A.sl.r_6 c i arg1 harg1 x0) (kernelRun0_A.sl.v297 c i arg1 harg1 arg5 x0) := by
  unfold kernelRun0_A.sl.v489 kernelRun0_A.sl.HS0_16 kernelRun0_A.sl.HS0_15 kernelRun0_A.sl.HS0_14
  refine (readCov_skip_chunk _ 7168 5120 _ _ _ _ (Or.inr (by decide))).trans ?_
  refine (readCov_skip_chunk _ 6144 5120 _ _ _ _ (Or.inr (by decide))).trans ?_
  exact View.readCov_cons_toLoadRect _ _ _ _

theorem v508_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v508 c i arg1 harg1 arg5 x0 = k0_pay69 (kernelRun0_A.sl.r_28 c i arg1 harg1 arg5 x0) := by
  unfold kernelRun0_A.sl.v508 kernelRun0_A.sl.HS0_16 kernelRun0_A.sl.HS0_15
  refine (readCov_skip_chunk _ 7168 6144 _ _ _ _ (Or.inr (by decide))).trans ?_
  exact View.readCov_cons_toLoadRect _ _ _ _

theorem v527_eq (c : Dev nD) (i : grid0.Coords) (arg1 : Memref sig .tc .vmem S8192x256 .bf16) (harg1 : arg1.IsWhole)
    (arg5 : Memref sig .tc .vmem S512x8192 .f32) (x0 : Vec F S8192x256 .bf16) :
    kernelRun0_A.sl.v527 c i arg1 harg1 arg5 x0 = k0_pay74 (kernelRun0_A.sl.r_6 c i arg1 harg1 x0) (kernelRun0_A.sl.v361 c i arg1 harg1 arg5 x0) := by
  unfold kernelRun0_A.sl.v527 kernelRun0_A.sl.HS0_16

  exact View.readCov_cons_toLoadRect _ _ _ _

/-! ## The run's values, one at a time

Each named value of the run is identified with its place in the structured block value: the running maximum after so
many chunks, a stored chunk of scores or of exponentials, a running sum after so many chunks. -/

/-- A step taken over the first `n` of the eight chunks (all eight for larger `n`). -/
def upto {α : Type} (a : α) (step : α → Fin 8 → α) : Nat → α
  | 0 => a
  | 1 => step a 0
  | 2 => step (step a 0) 1
  | 3 => step (step (step a 0) 1) 2
  | 4 => step (step (step (step a 0) 1) 2) 3
  | 5 => step (step (step (step (step a 0) 1) 2) 3) 4
  | 6 => step (step (step (step (step (step a 0) 1) 2) 3) 4) 5
  | 7 => step (step (step (step (step (step (step a 0) 1) 2) 3) 4) 5) 6
  | _ => over8 a step

/-- The steps of the four running sums and of the running maximum. -/
def maxStep (q : FVec F S512x256 .bf16) (k : Fin 8 → Vec F S1024x256 .bf16) : FVec F S512x1 .f32 → Fin 8 → FVec F S512x1 .f32 :=
  fun a j => maximumf a (rowMax (score q (k j)))
def negStep (m : FVec F S512x1 .f32) (lab : IVec S512x1 32) (s : Fin 8 → FVec F S512x1024 .f32) (col : Fin 8 → Vec F S1x1024 .i32) :
    FVec F S512x1 .f32 → Fin 8 → FVec F S512x1 .f32 :=
  fun a j => addf a (rowSum (mulf (exOf m (s j)) (others (maskOf lab (col j)))))
def posStep (m : FVec F S512x1 .f32) (lab : IVec S512x1 32) (s : Fin 8 → FVec F S512x1024 .f32) (col : Fin 8 → Vec F S1x1024 .i32) :
    FVec F S512x1 .f32 → Fin 8 → FVec F S512x1 .f32 :=
  fun a j => addf a (rowSum (mulf (maskOf lab (col j)) (lgOf m (s j))))
def cntStep (lab : IVec S512x1 32) (col : Fin 8 → Vec F S1x1024 .i32) : FVec F S512x1 .f32 → Fin 8 → FVec F S512x1 .f32 :=
  fun a j => addf a (rowSum (maskOf lab (col j)))
def corStep (m n : FVec F S512x1 .f32) (lab : IVec S512x1 32) (s : Fin 8 → FVec F S512x1024 .f32) (col : Fin 8 → Vec F S1x1024 .i32) :
    FVec F S512x1 .f32 → Fin 8 → FVec F S512x1 .f32 :=
  fun a j => addf a (rowSum (mulf (maskOf lab (col j)) (lpOf n (keep (exOf m (s j))))))

/-- The block value over these steps. -/
theorem tileOf_upto (q : FVec F S512x256 .bf16) (lab : IVec S512x1 32) (k : Fin 8 → Vec F S1024x256 .bf16) (col : Fin 8 → Vec F S1x1024 .i32) :
    tileOf q lab k col
      = divf (subf (upto zeroCol (posStep (mFinal q k) lab (fun j => keep (score q (k j))) col) 8)
          (upto zeroCol (corStep (mFinal q k) (upto zeroCol (negStep (mFinal q k) lab (fun j => keep (score q (k j))) col) 8) lab
            (fun j => keep (score q (k j))) col) 8))
        (upto zeroCol (cntStep lab col) 8) := rfl

section Chain

variable (c : Dev nD) (i : grid0.Coords) (arg1 : Memref sig .tc .vmem S8192x256 .bf16) (harg1 : arg1.IsWhole)
  (arg2 : Memref sig .tc .vmem S512x1 .i32) (harg2 : arg2.IsWhole) (arg3 : Memref sig .tc .vmem S1x8192 .i32) (harg3 : arg3.IsWhole)
  (arg5 : Memref sig .tc .vmem S512x8192 .f32)
  (x0 : Vec F S8192x256 .bf16) (x1 : Vec F S512x1 .i32) (x2 : Vec F S1x8192 .i32)

set_option quotPrecheck false

local notation "Qv" => (k0_pay2 (ldQ i arg1 harg1 x0) : FVec F S512x256 .bf16)
local notation "Lb" => (k0_pay3 (ldL arg2 harg2 x1) : IVec S512x1 32)
local notation "Kc" => (fun j : Fin 8 => ldK (1024 * j.val) (inbK j) arg1 harg1 x0)
local notation "Cc" => (fun j : Fin 8 => ldC (1024 * j.val) (inbC j) arg3 harg3 x2)
local notation "Mx" => mFinal Qv Kc
local notation "Sc" => (fun j : Fin 8 => keep (score Qv (Kc j)))
local notation "NS" => negStep Mx Lb Sc Cc
local notation "PS" => posStep Mx Lb Sc Cc
local notation "CS" => cntStep Lb Cc
local notation "Ng" => upto zeroCol NS 8
local notation "KS" => corStep Mx Ng Lb Sc Cc

/-! ### The running maximum -/

theorem r_2_eq' : kernelRun0_A.sl.r_2 c i arg1 harg1 x0 = upto negInfCol (maxStep Qv Kc) 2 := rfl
theorem r_3_eq' : kernelRun0_A.sl.r_3 c i arg1 harg1 x0 = upto negInfCol (maxStep Qv Kc) 4 := by
  unfold kernelRun0_A.sl.r_3
  rw [r_2_eq']
  rfl
theorem r_5_eq' : kernelRun0_A.sl.r_5 c i arg1 harg1 x0 = upto negInfCol (maxStep Qv Kc) 7 := by
  unfold kernelRun0_A.sl.r_5
  rw [r_3_eq']
  rfl
theorem r_6_eq' : kernelRun0_A.sl.r_6 c i arg1 harg1 x0 = Mx := by
  unfold kernelRun0_A.sl.r_6
  rw [r_5_eq']
  rfl

/-! ### The scores the first pass stores, as the second pass loads them -/

theorem s0_eq : kernelRun0_A.sl.v137 c i arg1 harg1 arg5 x0 = Sc 0 := by
  rw [v137_eq]
  rfl
theorem s1_eq : kernelRun0_A.sl.v169 c i arg1 harg1 arg5 x0 = Sc 1 := by
  rw [v169_eq]
  rfl
theorem s2_eq : kernelRun0_A.sl.v201 c i arg1 harg1 arg5 x0 = Sc 2 := by
  rw [v201_eq]
  rfl
theorem s3_eq : kernelRun0_A.sl.v233 c i arg1 harg1 arg5 x0 = Sc 3 := by
  rw [v233_eq]
  rfl
theorem s4_eq : kernelRun0_A.sl.v265 c i arg1 harg1 arg5 x0 = Sc 4 := by
  rw [v265_eq]
  rfl
theorem s5_eq : kernelRun0_A.sl.v297 c i arg1 harg1 arg5 x0 = Sc 5 := by
  rw [v297_eq]
  rfl
theorem s6_eq : kernelRun0_A.sl.v329 c i arg1 harg1 arg5 x0 = Sc 6 := by
  rw [v329_eq]
  rfl
theorem s7_eq : kernelRun0_A.sl.v361 c i arg1 harg1 arg5 x0 = Sc 7 := by
  rw [v361_eq]
  rfl

/-! ### Values of single chunks the run names on the way -/

theorem r_18_eq' : kernelRun0_A.sl.r_18 c i arg1 harg1 arg5 x0 = lgOf Mx (Sc 3) := by
  unfold kernelRun0_A.sl.r_18
  rw [s3_eq, r_6_eq']
  rfl
theorem r_27_eq' : kernelRun0_A.sl.r_27 c i arg1 harg1 arg5 x0 = lgOf Mx (Sc 6) := by
  unfold kernelRun0_A.sl.r_27
  rw [s6_eq, r_6_eq']
  rfl
theorem r_28_eq' : kernelRun0_A.sl.r_28 c i arg1 harg1 arg5 x0 = exOf Mx (Sc 6) := by
  unfold kernelRun0_A.sl.r_28
  rw [s6_eq, r_6_eq']
  rfl
theorem r_19_eq' : kernelRun0_A.sl.r_19 c i arg1 harg1 arg2 harg2 arg3 harg3 arg5 x0 x1 x2 = mulf (exOf Mx (Sc 3)) (others (maskOf Lb (Cc 3))) := by
  unfold kernelRun0_A.sl.r_19
  rw [s3_eq, r_6_eq']
  rfl
theorem r_9_eq' : kernelRun0_A.sl.r_9 c i arg1 harg1 arg2 harg2 arg3 harg3 arg5 x0 x1 x2 = mulf (maskOf Lb (Cc 0)) (lgOf Mx (Sc 0)) := by
  unfold kernelRun0_A.sl.r_9
  rw [s0_eq, ← r_6_eq' c i arg1 harg1 x0]
  rfl

/-! ### The exponentials the second pass stores, as the third pass loads them -/

theorem e0_eq : kernelRun0_A.sl.v394 c i arg1 harg1 arg5 x0 = keep (exOf Mx (Sc 0)) := by
  rw [v394_eq, s0_eq, ← r_6_eq' c i arg1 harg1 x0]
  rfl
theorem e1_eq : kernelRun0_A.sl.v413 c i arg1 harg1 arg5 x0 = keep (exOf Mx (Sc 1)) := by
  rw [v413_eq, s1_eq, r_6_eq']
  rfl
theorem e2_eq : kernelRun0_A.sl.v432 c i arg1 harg1 arg5 x0 = keep (exOf Mx (Sc 2)) := by
  rw [v432_eq, s2_eq, r_6_eq']
  rfl
theorem e3_eq : kernelRun0_A.sl.v451 c i arg1 harg1 arg5 x0 = keep (exOf Mx (Sc 3)) := by
  rw [v451_eq, s3_eq, r_6_eq']
  rfl
theorem e4_eq : kernelRun0_A.sl.v470 c i arg1 harg1 arg5 x0 = keep (exOf Mx (Sc 4)) := by
  rw [v470_eq, s4_eq, r_6_eq']
  rfl
theorem e5_eq : kernelRun0_A.sl.v489 c i arg1 harg1 arg5 x0 = keep (exOf Mx (Sc 5)) := by
  rw [v489_eq, s5_eq, r_6_eq']
  rfl
theorem e7_eq : kernelRun0_A.sl.v527 c i arg1 harg1 arg5 x0 = keep (exOf Mx (Sc 7)) := by
  rw [v527_eq, s7_eq, r_6_eq']
  rfl
theorem e6_eq : kernelRun0_A.sl.v508 c i arg1 harg1 arg5 x0 = keep (exOf Mx (Sc 6)) := by
  rw [v508_eq, r_28_eq']
  rfl

/-! ### The sum of the exponentials over the other labels -/

theorem r_8_eq' : kernelRun0_A.sl.r_8 c i arg1 harg1 arg2 harg2 arg3 harg3 arg5 x0 x1 x2 = upto zeroCol NS 1 := by
  unfold kernelRun0_A.sl.r_8
  rw [s0_eq, ← r_6_eq' c i arg1 harg1 x0]
  rfl
theorem r_10_eq' : kernelRun0_A.sl.r_10 c i arg1 harg1 arg2 harg2 arg3 harg3 arg5 x0 x1 x2 = upto zeroCol NS 2 := by
  unfold kernelRun0_A.sl.r_10
  rw [r_8_eq', s1_eq, r_6_eq']
  rfl
theorem r_14_eq' : kernelRun0_A.sl.r_14 c i arg1 harg1 arg2 harg2 arg3 harg3 arg5 x0 x1 x2 = upto zeroCol NS 3 := by
  unfold kernelRun0_A.sl.r_14
  rw [r_10_eq', s2_eq, r_6_eq']
  rfl
theorem r_20_eq' : kernelRun0_A.sl.r_20 c i arg1 harg1 arg2 harg2 arg3 harg3 arg5 x0 x1 x2 = upto zeroCol NS 5 := by
  unfold kernelRun0_A.sl.r_20
  rw [r_14_eq', r_19_eq', s4_eq, r_6_eq']
  rfl
theorem r_23_eq' : kernelRun0_A.sl.r_23 c i arg1 harg1 arg2 harg2 arg3 harg3 arg5 x0 x1 x2 = upto zeroCol NS 6 := by
  unfold kernelRun0_A.sl.r_23
  rw [r_20_eq', s5_eq, r_6_eq']
  rfl
theorem r_30_eq' : kernelRun0_A.sl.r_30 c i arg1 harg1 arg2 harg2 arg3 harg3 arg5 x0 x1 x2 = Ng := by
  unfold kernelRun0_A.sl.r_30
  rw [r_23_eq', r_28_eq', s7_eq, r_6_eq']
  rfl

/-! ### The sum of the masked shifted scores -/

theorem r_11_eq' : kernelRun0_A.sl.r_11 c i arg1 harg1 arg2 harg2 arg3 harg3 arg5 x0 x1 x2 = upto zeroCol PS 2 := by
  unfold kernelRun0_A.sl.r_11
  rw [r_9_eq', s1_eq, r_6_eq']
  rfl
theorem r_15_eq' : kernelRun0_A.sl.r_15 c i arg1 harg1 arg2 harg2 arg3 harg3 arg5 x0 x1 x2 = upto zeroCol PS 3 := by
  unfold kernelRun0_A.sl.r_15
  rw [r_11_eq', s2_eq, r_6_eq']
  rfl
theorem r_21_eq' : kernelRun0_A.sl.r_21 c i arg1 harg1 arg2 harg2 arg3 harg3 arg5 x0 x1 x2 = upto zeroCol PS 5 := by
  unfold kernelRun0_A.sl.r_21
  rw [r_15_eq', r_18_eq', s4_eq, r_6_eq']
  rfl
theorem r_24_eq' : kernelRun0_A.sl.r_24 c i arg1 harg1 arg2 harg2 arg3 harg3 arg5 x0 x1 x2 = upto zeroCol PS 6 := by
  unfold kernelRun0_A.sl.r_24
  rw [r_21_eq', s5_eq, r_6_eq']
  rfl
theorem r_31_eq' : kernelRun0_A.sl.r_31 c i arg1 harg1 arg2 harg2 arg3 harg3 arg5 x0 x1 x2 = upto zeroCol PS 8 := by
  unfold kernelRun0_A.sl.r_31
  rw [r_24_eq', r_27_eq', s7_eq, r_6_eq']
  rfl

/-! ### The count of the columns with the row's label -/

theorem r_33_eq' : kernelRun0_A.sl.r_33 c arg2 harg2 arg3 harg3 x1 x2 = upto zeroCol CS 8 := rfl

/-! ### The log-correction sum -/

theorem r_34_eq' : kernelRun0_A.sl.r_34 c i arg1 harg1 arg2 harg2 arg3 harg3 arg5 x0 x1 x2 = upto zeroCol KS 2 := by
  unfold kernelRun0_A.sl.r_34
  rw [r_30_eq', e0_eq, e1_eq]
  rfl
theorem r_36_eq' : kernelRun0_A.sl.r_36 c i arg1 harg1 arg2 harg2 arg3 harg3 arg5 x0 x1 x2 = upto zeroCol KS 4 := by
  unfold kernelRun0_A.sl.r_36
  rw [r_30_eq', r_34_eq', e2_eq, e3_eq]
  rfl
theorem r_37_eq' : kernelRun0_A.sl.r_37 c i arg1 harg1 arg2 harg2 arg3 harg3 arg5 x0 x1 x2 = mulf (maskOf Lb (Cc 4)) (lpOf Ng (keep (exOf Mx (Sc 4)))) := by
  unfold kernelRun0_A.sl.r_37
  rw [r_30_eq', e4_eq]
  rfl
theorem r_38_eq' : kernelRun0_A.sl.r_38 c i arg1 harg1 arg2 harg2 arg3 harg3 arg5 x0 x1 x2 = upto zeroCol KS 7 := by
  unfold kernelRun0_A.sl.r_38
  rw [r_30_eq', r_36_eq', r_37_eq', e5_eq, e6_eq]
  rfl

end Chain

/-! ## The block the run leaves -/

theorem piece_eq (c : Dev nD) (i : grid0.Coords) (arg1 : Memref sig .tc .vmem S8192x256 .bf16) (harg1 : arg1.IsWhole)
    (arg2 : Memref sig .tc .vmem S512x1 .i32) (harg2 : arg2.IsWhole) (arg3 : Memref sig .tc .vmem S1x8192 .i32) (harg3 : arg3.IsWhole)
    (arg4 : Memref sig .tc .vmem S512x1 .f32) (harg4 : arg4.IsWhole) (arg5 : Memref sig .tc .vmem S512x8192 .f32) (harg5 : arg5.IsWhole)
    (x0 : Vec F S8192x256 .bf16) (x1 : Vec F S512x1 .i32) (x2 : Vec F S1x8192 .i32) :
    ∃ (q : FVec F S512x256 .bf16) (lab : IVec S512x1 32) (k : Fin 8 → Vec F S1024x256 .bf16) (col : Fin 8 → Vec F S1x1024 .i32),
      out0_A_3 c i arg1 harg1 arg2 harg2 arg3 harg3 arg4 harg4 arg5 harg5 x0 x1 x2 = tileOf q lab k col
      ∧ (∀ (p : Fin 512) (d : Fin 256), q (ix2 p d) = x0 (ix2 (rowOf i p) d))
      ∧ (∀ p : Fin 512, lab (ix2 p (0 : Fin 1)) = x1 (ix2 p (0 : Fin 1)))
      ∧ (∀ (j : Fin 8) (b : Fin 1024) (d : Fin 256), k j (ix2 b d) = x0 (ix2 (RowLoss.col j b) d))
      ∧ (∀ (j : Fin 8) (b : Fin 1024), col j (ix2 (0 : Fin 1) b) = x2 (ix2 (0 : Fin 1) (RowLoss.col j b))) := by
  refine ⟨k0_pay2 (ldQ i arg1 harg1 x0), k0_pay3 (ldL arg2 harg2 x1),
    fun j => ldK (1024 * j.val) (inbK j) arg1 harg1 x0, fun j => ldC (1024 * j.val) (inbC j) arg3 harg3 x2,
    ?_, q_at i arg1 harg1 x0, lab_at arg2 harg2 x1, fun j => k_at j arg1 harg1 x0, fun j => col_at j arg3 harg3 x2⟩
  unfold out0_A_3
  rw [View.read_writes_eq_canon _ _ _ (cover0_A_3 c i arg1 harg1 arg2 harg2 arg3 harg3 arg4 harg4 arg5 harg5 x0 x1 x2)]
  unfold kernelRun0_A
  dsimp only
  rw [View.canon_unit_zero (by funext a; match a with | ⟨0, _⟩ => rfl | ⟨1, _⟩ => rfl)]
  rw [r_30_eq', r_31_eq',
    r_33_eq', r_38_eq',
    e7_eq, tileOf_upto]
  rfl

end Cert.KernelIdeal.Tile

end
-- ==== Proof.TileStages.lean ====
/-
  Two stages of the block value read at an index, at the extended reals: a chunk's scaled score at (row, column) is the
  inner product over the 256 features of the query row and the key row, times the named reciprocal temperature; a
  chunk's mask at (row, column) is one when the row's label word equals the column's and zero otherwise.
-/
import proofs.«417502_j22436909154959_3_alg».proof.Proof.TileDef
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tile

open Idealize.ShloMosaic Idealize.ShloMosaic.TcCoe Idealize.SL.Sem Cert.KernelIdeal Cert.KernelIdeal.Gen ValueIdx

/-! ## The contraction's operand indices

At result index `i` and contraction position `c` the query operand is read at `(i 0, c)` and the key operand at
`(i 1, c)`: axis 1 of both operands is contracted, axis 0 of each is kept. -/

theorem lhs_score_0 (i : S512x1024.Idx) (c : dot_S512x256_S1024x256_S512x1024_1_1_0_0_n_n.contr.Idx) :
    (dot_S512x256_S1024x256_S512x1024_1_1_0_0_n_n.lhsIdx i c 0).val = (i 0).val := by
  unfold DotDims.lhsIdx
  rw [dif_neg (show ¬(0 : Fin S512x256.rank) ∈ dot_S512x256_S1024x256_S512x1024_1_1_0_0_n_n.lhsBatch by decide), dif_pos (show (0 : Fin S512x256.rank) ∈ dot_S512x256_S1024x256_S512x1024_1_1_0_0_n_n.lhsNonContracting by decide)]
  rfl
theorem lhs_score_1 (i : S512x1024.Idx) (c : dot_S512x256_S1024x256_S512x1024_1_1_0_0_n_n.contr.Idx) :
    (dot_S512x256_S1024x256_S512x1024_1_1_0_0_n_n.lhsIdx i c 1).val = (c ⟨0, by decide⟩).val :=
  dot_S512x256_S1024x256_S512x1024_1_1_0_0_n_n.lhsIdx_val_of_single rfl i c
theorem rhs_score_0 (i : S512x1024.Idx) (c : dot_S512x256_S1024x256_S512x1024_1_1_0_0_n_n.contr.Idx) :
    (dot_S512x256_S1024x256_S512x1024_1_1_0_0_n_n.rhsIdx i c 0).val = (i 1).val := by
  unfold DotDims.rhsIdx
  rw [dif_neg (show ¬(0 : Fin S1024x256.rank) ∈ dot_S512x256_S1024x256_S512x1024_1_1_0_0_n_n.rhsBatch by decide), dif_pos (show (0 : Fin S1024x256.rank) ∈ dot_S512x256_S1024x256_S512x1024_1_1_0_0_n_n.rhsNonContracting by decide)]
  rfl
theorem rhs_score_1 (i : S512x1024.Idx) (c : dot_S512x256_S1024x256_S512x1024_1_1_0_0_n_n.contr.Idx) :
    (dot_S512x256_S1024x256_S512x1024_1_1_0_0_n_n.rhsIdx i c 1).val = (c ⟨0, by decide⟩).val :=
  dot_S512x256_S1024x256_S512x1024_1_1_0_0_n_n.rhsIdx_val_of_single rfl i c

/-- The contraction into the zero accumulator, read at (row `p`, column `b`), is the inner product over the 256
    features of query row `p` and key row `b`. -/
theorem matmul_at (q : FVec Ideal S512x256 .bf16) (k : FVec Ideal S1024x256 .bf16) (p : Fin 512) (b : Fin 1024) :
    matmul dot_S512x256_S1024x256_S512x1024_1_1_0_0_n_n none q k (constant (F := Ideal) S512x1024 .f32 0x00000000#32) (ix2 p b)
      = ∑ d : Fin 256, q (ix2 p d) * k (ix2 b d) := by
  simp only [matmul]
  rw [Ideal.matmul_constant_zero_apply, ← Equiv.sum_comp (ValueIdx.contrEquiv1 dot_S512x256_S1024x256_S512x1024_1_1_0_0_n_n 256 rfl rfl).symm]
  refine Finset.sum_congr rfl fun d _ => ?_
  have hk := ValueIdx.contrEquiv1_symm_val dot_S512x256_S1024x256_S512x1024_1_1_0_0_n_n 256 rfl rfl d
  have el : dot_S512x256_S1024x256_S512x1024_1_1_0_0_n_n.lhsIdx (ix2 p b) ((ValueIdx.contrEquiv1 dot_S512x256_S1024x256_S512x1024_1_1_0_0_n_n 256 rfl rfl).symm d) = ix2 p d := funext fun a => Fin.ext (by
    match a with
    | ⟨0, _⟩ => exact lhs_score_0 _ _
    | ⟨1, _⟩ => exact (lhs_score_1 _ _).trans hk)
  have er : dot_S512x256_S1024x256_S512x1024_1_1_0_0_n_n.rhsIdx (ix2 p b) ((ValueIdx.contrEquiv1 dot_S512x256_S1024x256_S512x1024_1_1_0_0_n_n 256 rfl rfl).symm d) = ix2 b d := funext fun a => Fin.ext (by
    match a with
    | ⟨0, _⟩ => exact rhs_score_0 _ _
    | ⟨1, _⟩ => exact (rhs_score_1 _ _).trans hk)
  rw [el, er]

theorem score_at (q : FVec Ideal S512x256 .bf16) (k : Vec Ideal S1024x256 .bf16) (p : Fin 512) (b : Fin 1024) :
    score (F := Ideal) q k (ix2 p b)
      = (∑ d : Fin 256, q (ix2 p d) * k (ix2 b d))
          * Named.named (F := Ideal) Cert.KernelIdeal.κ "inv_temp" (φ := .f32) 0x41200000#32 := by
  unfold score k0_pay9
  rw [shapeCast_self]
  rw [mulf_apply, broadcast_apply, matmul_at]

/-! ## The mask -/

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-bit comparison of two label words, widened to 32 bits and read as a signed integer, is one when the
    words are equal and zero otherwise. -/
theorem sitofp_cmpi_eq (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · subst h
    rw [if_pos rfl]
    have e : (IntOp.cmpi .eq x x).setWidth 32 = 1#32 := by simp [IntOp.cmpi]
    rw [e]
    simp
  · rw [if_neg h]
    have hb : (x == y) = false := beq_false_of_ne h
    have e : (IntOp.cmpi .eq x y).setWidth 32 = 0#32 := by simp [IntOp.cmpi, hb]
    rw [e]
    simp

theorem mask_at (lab : IVec S512x1 32) (col : Vec Ideal S1x1024 .i32) (p : Fin 512) (b : Fin 1024) :
    maskOf (F := Ideal) lab col (ix2 p b)
      = if lab (ix2 p (0 : Fin 1)) = col (ix2 (0 : Fin 1) b) then (1 : EReal) else 0 := by
  unfold maskOf k0_pay26
  rw [shapeCast_self]
  rw [sitofp_apply, extui_apply]
  show FloatOps.sitofp (F := Ideal) .f32 ((IntOp.cmpi .eq
      (broadcastTo S512x1024 lab broadcasts_S512x1_S512x1024 (ix2 p b))
      (broadcastTo S512x1024 col broadcasts_S1x1024_S512x1024 (ix2 p b))).setWidth 32) = _
  rw [broadcastTo_a1_ab_apply, broadcastTo_1b_ab_apply, sitofp_cmpi_eq]

end Cert.KernelIdeal.Tile

end
-- ==== Proof.TileRow.lean ====
/-
  `tileOf` read at a row, at the extended reals: with `S` the row's scaled scores against all 8192 columns and `Mk` its
  0/1 label mask, chunk by chunk, row `p` of the block is `RowLoss.kerRow` — the eight chunks' row maxima fold to the
  maximum over all columns and the eight chunks' row sums to the sums over all columns.
-/
import proofs.«417502_j22436909154959_3_alg».proof.Proof.RowLoss
import proofs.«417502_j22436909154959_3_alg».proof.Proof.TileDef
import proofs.«417502_j22436909154959_3_alg».proof.Proof.TileStages
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tile

open Idealize.ShloMosaic Idealize.ShloMosaic.TcCoe Idealize.SL.Sem Cert.KernelIdeal Cert.KernelIdeal.Gen ValueIdx

/-- The kernel's named reciprocal temperature at the extended reals. -/
abbrev kInv : EReal := Named.named (F := Ideal) Cert.KernelIdeal.κ "inv_temp" (φ := .f32) 0x41200000#32

namespace Row

/-! ## Two column layouts read at an index -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The stage functions at an index -/

/-- The word the running maximum starts from is `-∞`. -/
theorem ofBits_negInf_f32 : Ideal.ofBits .f32 0xFF800000#32 = ⊥ := by simp [Ideal.ofBits, Ideal.ieee]

/-- The source index over row `p` at column `b`. -/
theorem lift_row (h : S512x1024.Reduces [1] S512) (p : Fin 512) (b : Fin 1024) : h.lift (ix1 p) b = ix2 p b :=
  funext fun a => Fin.ext (by match a with | ⟨0, _⟩ => rfl | ⟨1, _⟩ => rfl)

/-- A chunk as it is stored is the chunk. -/
theorem keep_eq (x : FVec Ideal S512x1024 .f32) : keep x = x := shapeCast_self x _

/-- The row maximum at row `p`: the fold of `max` from `-∞` over the row's 1024 entries. -/
theorem rowMax_apply (x : FVec Ideal S512x1024 .f32) (p : Fin 512) :
    rowMax x (ix2 p (0 : Fin 1)) = Finset.univ.fold max ⊥ (fun b : Fin 1024 => x (ix2 p b)) := by
  unfold rowMax
  refine (shapeCast_a_a1_apply _ shapeCasts_S512_S512x1 p 0).trans ?_
  refine (Ideal.multiReduction_maximumf_single x 0xFF800000#32 reduces_S512x1024_S512 (.inl rfl) rfl (ix1 p)).trans ?_
  show (Finset.univ : Finset (Fin 1024)).fold max (Ideal.ofBits .f32 0xFF800000#32)
    (fun b : Fin 1024 => x (reduces_S512x1024_S512.lift (ix1 p) b)) = _
  rw [ofBits_negInf_f32]
  exact congrArg (Finset.univ.fold max ⊥) (funext fun b => congrArg x (lift_row _ p b))

/-- The row sum at row `p`: the sum of the row's 1024 entries. -/
theorem rowSum_apply (x : FVec Ideal S512x1024 .f32) (p : Fin 512) :
    rowSum x (ix2 p (0 : Fin 1)) = ∑ b : Fin 1024, x (ix2 p b) := by
  unfold rowSum
  refine (shapeCast_a_a1_apply _ shapeCasts_S512_S512x1 p 0).trans ?_
  refine (Ideal.multiReduction_add_single x 0x00000000#32 reduces_S512x1024_S512 (.inl rfl) rfl (ix1 p)).trans ?_
  exact Finset.sum_congr rfl fun b _ => congrArg x (lift_row _ p b)

/-- The column the running maximum starts from reads `-∞`, -/
theorem negInfCol_apply (i : S512x1.Idx) : negInfCol (F := Ideal) i = ⊥ := ofBits_negInf_f32
/-- and the column every running sum starts from reads zero. -/
theorem zeroCol_apply (i : S512x1.Idx) : zeroCol (F := Ideal) i = 0 := Ideal.ofBits_zero_f32

/-- The shifted scores at `(p, b)`, -/
theorem lgOf_apply (m : FVec Ideal S512x1 .f32) (s : FVec Ideal S512x1024 .f32) (p : Fin 512) (b : Fin 1024) :
    lgOf m s (ix2 p b) = s (ix2 p b) - m (ix2 p (0 : Fin 1)) := by
  unfold lgOf Gen.k0_pay33
  rw [subf_apply, broadcastTo_a1_ab_apply]

/-- and their exponentials. -/
theorem exOf_apply (m : FVec Ideal S512x1 .f32) (s : FVec Ideal S512x1024 .f32) (p : Fin 512) (b : Fin 1024) :
    exOf m s (ix2 p b) = Ideal.exp (s (ix2 p b) - m (ix2 p (0 : Fin 1))) := by
  unfold exOf Gen.k0_pay34
  show Ideal.exp (Gen.k0_pay33 m s (ix2 p b)) = _
  exact congrArg Ideal.exp (lgOf_apply m s p b)

/-- One minus a mask at an index: the literal one less the mask. -/
theorem others_apply (msk : FVec Ideal S512x1024 .f32) (i : S512x1024.Idx) :
    others msk i = RowLoss.cOne - msk i := rfl

/-- The logarithm of an exponential plus the row's sum over the other labels, at `(p, b)`. -/
theorem lpOf_apply (n : FVec Ideal S512x1 .f32) (e : FVec Ideal S512x1024 .f32) (p : Fin 512) (b : Fin 1024) :
    lpOf n e (ix2 p b) = Ideal.log (e (ix2 p b) + n (ix2 p (0 : Fin 1))) := by
  unfold lpOf
  show Ideal.log (e (ix2 p b) + broadcastTo S512x1024 n broadcasts_S512x1_S512x1024 (ix2 p b)) = _
  rw [broadcastTo_a1_ab_apply]

/-! ## The eight chunks at a row -/

/-- The running row maximum over the eight chunks at row `p`: the largest of the row's 8192 scaled scores. -/
theorem mFinal_row (q : FVec Ideal S512x256 .bf16) (k : Fin 8 → Vec Ideal S1024x256 .bf16) (p : Fin 512) (S : Fin 8192 → EReal)
    (hs : ∀ (j : Fin 8) (b : Fin 1024), score q (k j) (ix2 p b) = S (RowLoss.col j b)) :
    mFinal q k (ix2 p (0 : Fin 1)) = RowLoss.top S := by
  unfold mFinal over8
  simp only [maximumf_apply, negInfCol_apply, rowMax_apply, hs]
  exact RowLoss.top_chunks S

/-- A running sum over the eight chunks, from the zero column, at row `p`: when chunk `j`'s summand at `(p, b)` is `f`
    at column `b` of chunk `j`, the sum of `f` over all 8192 columns. -/
theorem acc_row (X : Fin 8 → FVec Ideal S512x1024 .f32) (p : Fin 512) (f : Fin 8192 → EReal)
    (hX : ∀ (j : Fin 8) (b : Fin 1024), X j (ix2 p b) = f (RowLoss.col j b)) :
    over8 (zeroCol (F := Ideal)) (fun a j => addf a (rowSum (X j))) (ix2 p (0 : Fin 1)) = ∑ c, f c := by
  unfold over8
  simp only [addf_apply, zeroCol_apply, rowSum_apply, hX]
  exact RowLoss.sum_chunks f

section Accumulations
variable (m : FVec Ideal S512x1 .f32) (s msk : Fin 8 → FVec Ideal S512x1024 .f32) (p : Fin 512) (S Mk : Fin 8192 → EReal)
  (hm : m (ix2 p (0 : Fin 1)) = RowLoss.top S)
  (hs : ∀ (j : Fin 8) (b : Fin 1024), s j (ix2 p b) = S (RowLoss.col j b))
  (hk : ∀ (j : Fin 8) (b : Fin 1024), msk j (ix2 p b) = Mk (RowLoss.col j b))
include hm hs hk

/-- The exponentials of the columns with another label, summed over the row. -/
theorem negF_row :
    over8 (zeroCol (F := Ideal)) (fun a j => addf a (rowSum (mulf (exOf m (s j)) (others (msk j))))) (ix2 p (0 : Fin 1))
      = RowLoss.neg RowLoss.cOne S Mk :=
  acc_row _ p (fun c => RowLoss.ex S c * (RowLoss.cOne - Mk c)) fun j b => by
    rw [mulf_apply, exOf_apply, others_apply, hs, hk, hm]; rfl

/-- The masked shifted scores, summed over the row. -/
theorem posF_row :
    over8 (zeroCol (F := Ideal)) (fun a j => addf a (rowSum (mulf (msk j) (lgOf m (s j))))) (ix2 p (0 : Fin 1))
      = ∑ c, Mk c * RowLoss.lg S c :=
  acc_row _ p (fun c => Mk c * RowLoss.lg S c) fun j b => by
    rw [mulf_apply, lgOf_apply, hs, hk, hm]; rfl

omit hm hs in
/-- The mask, summed over the row. -/
theorem cntF_row :
    over8 (zeroCol (F := Ideal)) (fun a j => addf a (rowSum (msk j))) (ix2 p (0 : Fin 1)) = ∑ c, Mk c :=
  acc_row _ p Mk hk

/-- The masked log-corrections, summed over the row. -/
theorem corF_row (n : FVec Ideal S512x1 .f32) (hn : n (ix2 p (0 : Fin 1)) = RowLoss.neg RowLoss.cOne S Mk) :
    over8 (zeroCol (F := Ideal)) (fun a j => addf a (rowSum (mulf (msk j) (lpOf n (keep (exOf m (s j))))))) (ix2 p (0 : Fin 1))
      = ∑ c, Mk c * RowLoss.lp RowLoss.cOne S Mk c :=
  acc_row _ p (fun c => Mk c * RowLoss.lp RowLoss.cOne S Mk c) fun j b => by
    rw [mulf_apply, lpOf_apply, keep_eq, exOf_apply, hs, hk, hm, hn]; rfl

end Accumulations

end Row

theorem tileOf_row (q : FVec Ideal S512x256 .bf16) (lab : IVec S512x1 32) (k : Fin 8 → Vec Ideal S1024x256 .bf16)
    (col : Fin 8 → Vec Ideal S1x1024 .i32) (p : Fin 512) (S Mk : Fin 8192 → EReal)
    (hS : ∀ (j : Fin 8) (b : Fin 1024), (∑ d : Fin 256, q (ix2 p d) * k j (ix2 b d)) * kInv = S (RowLoss.col j b))
    (hM : ∀ (j : Fin 8) (b : Fin 1024),
      (if lab (ix2 p (0 : Fin 1)) = col j (ix2 (0 : Fin 1) b) then (1 : EReal) else 0) = Mk (RowLoss.col j b)) :
    tileOf (F := Ideal) q lab k col (ix2 p (0 : Fin 1)) = RowLoss.kerRow RowLoss.cOne S Mk := by
  have hsc : ∀ (j : Fin 8) (b : Fin 1024), score q (k j) (ix2 p b) = S (RowLoss.col j b) := fun j b =>
    (score_at q (k j) p b).trans (hS j b)
  have hm := Row.mFinal_row q k p S hsc
  have hs : ∀ (j : Fin 8) (b : Fin 1024), keep (score q (k j)) (ix2 p b) = S (RowLoss.col j b) := fun j b => by
    rw [Row.keep_eq]; exact hsc j b
  have hk : ∀ (j : Fin 8) (b : Fin 1024), maskOf (F := Ideal) lab (col j) (ix2 p b) = Mk (RowLoss.col j b) := fun j b =>
    (mask_at lab (col j) p b).trans (hM j b)
  have hneg := Row.negF_row (mFinal q k) (fun j => keep (score q (k j))) (fun j => maskOf lab (col j)) p S Mk hm hs hk
  have hpos := Row.posF_row (mFinal q k) (fun j => keep (score q (k j))) (fun j => maskOf lab (col j)) p S Mk hm hs hk
  have hcnt := Row.cntF_row (fun j => maskOf (F := Ideal) lab (col j)) p Mk hk
  have hcor := Row.corF_row (mFinal q k) (fun j => keep (score q (k j))) (fun j => maskOf lab (col j)) p S Mk hm hs hk _ hneg
  unfold tileOf RowLoss.kerRow
  simp only [divf_apply, subf_apply]
  rw [hpos, hcor, hcnt]

end Cert.KernelIdeal.Tile

end
-- ==== Proof.KernelTile.lean ====
/-
  What the kernel leaves in one grid point's output block, read at a row: for the tile starting at row `512 * i`,
  row `p` of the block is the row loss (`RowLoss.kerRow`) of anchor `512 * i + p` over all 8192 columns — the score
  against column `b` is the inner product of rows `512 * i + p` and `b` of the feature array times the named
  reciprocal temperature, and the mask compares the tile's row label with the column's label.
-/
import proofs.«417502_j22436909154959_3_alg».proof.Proof.Gen.KernelIdeal.Frame
import proofs.«417502_j22436909154959_3_alg».proof.Proof.RowLoss
import proofs.«417502_j22436909154959_3_alg».proof.Proof.TileDef
import proofs.«417502_j22436909154959_3_alg».proof.Proof.TilePiece
import proofs.«417502_j22436909154959_3_alg».proof.Proof.TileRow
import Idealize.ShloMosaic.Lib.ValueIdx

set_option maxRecDepth 16384

noncomputable section

namespace Cert.KernelIdeal.Tile

open Idealize.ShloMosaic Idealize.ShloMosaic.TcCoe Idealize.SL.Sem Cert.KernelIdeal Cert.KernelIdeal.Gen ValueIdx

theorem tile_row (c : Dev nD) (i : grid0.Coords) (arg1 : Memref sig .tc .vmem S8192x256 .bf16) (harg1 : arg1.IsWhole)
    (arg2 : Memref sig .tc .vmem S512x1 .i32) (harg2 : arg2.IsWhole) (arg3 : Memref sig .tc .vmem S1x8192 .i32) (harg3 : arg3.IsWhole)
    (arg4 : Memref sig .tc .vmem S512x1 .f32) (harg4 : arg4.IsWhole) (arg5 : Memref sig .tc .vmem S512x8192 .f32) (harg5 : arg5.IsWhole)
    (x0 : Vec Ideal S8192x256 .bf16) (x1 : Vec Ideal S512x1 .i32) (x2 : Vec Ideal S1x8192 .i32) (p : Fin 512) :
    out0_A_3 (F := Ideal) c i arg1 harg1 arg2 harg2 arg3 harg3 arg4 harg4 arg5 harg5 x0 x1 x2 (ix2 p (0 : Fin 1))
      = RowLoss.kerRow RowLoss.cOne
          (fun b : Fin 8192 => (∑ d : Fin 256, x0 (ix2 (rowOf i p) d) * x0 (ix2 b d)) * kInv)
          (fun b : Fin 8192 => if x1 (ix2 p (0 : Fin 1)) = x2 (ix2 (0 : Fin 1) b) then 1 else 0) := by
  obtain ⟨q, lab, k, col, h, hq, hl, hk, hc⟩ := piece_eq (F := Ideal) c i arg1 harg1 arg2 harg2 arg3 harg3 arg4 harg4 arg5 harg5 x0 x1 x2
  rw [h]
  refine tileOf_row q lab k col p _ _ (fun j b => ?_) (fun j b => ?_)
  · simp only [hq, hk]
  · simp only [hl, hc]

end Cert.KernelIdeal.Tile

end
-- ==== Proof.KernelValue.lean ====
/-
  The idealized kernel program's run with its result named: every weakly fair execution ends with the scalar result
  at `RowLoss.lossKer` of the argument arrays — the rows' losses, each a tile row (`Tile.tile_row`) of the array the
  host prefix lays out (row `64 * c + v` is slot `c`, view `v`), summed, divided by 8192 and scaled by the host tail.
-/
import proofs.«417502_j22436909154959_3_alg».proof.Proof.Gen.KernelIdeal.Frame
import proofs.«417502_j22436909154959_3_alg».proof.Proof.RowLoss
import proofs.«417502_j22436909154959_3_alg».proof.Proof.KernelTile
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Group.Finset.Defs
import Mathlib.Algebra.BigOperators.Fin

set_option maxRecDepth 16384

noncomputable section

namespace Cert.KernelIdeal.ValueLeg

open Idealize.ShloMosaic Idealize.ShloMosaic.TcCoe Idealize.SL.Sem Cert.KernelIdeal Cert.KernelIdeal.Gen

section Parts

open ValueIdx

variable (m : (ℓ : Loc nD τ sig) → Buf (Elt Ideal) ℓ)

/-! ## The three arrays the region reads, as the host prefix lays them out -/

/-- The 8192 feature rows as the region finds them, -/
abbrev xarr (c : Dev nD) : Vec Ideal S8192x256 .bf16 := V m c main_v5
/-- the rows' labels as a column, -/
abbrev rarr (c : Dev nD) : Vec Ideal S8192x1 .i32 := V m c main_v3
/-- and the same labels as a row. -/
abbrev carr (c : Dev nD) : Vec Ideal S1x8192 .i32 := V m c main_v4

/-- The feature array with its first two axes merged (the change of float format is the identity at the extended
    reals). -/
def rowsOf (x : FVec Ideal S128x64x256 .f32) : FVec Ideal S8192x256 .bf16 :=
  truncf (F := Ideal) .bf16 (shapeCast S8192x256 x shapeCasts_S128x64x256_S8192x256) bitsLt_bf16_f32
/-- Each slot's label repeated over the 64 views, the two axes merged. -/
def labOf (l : IVec S128 32) : IVec S8192 32 :=
  shapeCast S8192 (broadcastInDim S128x64 ![0] bcast_S128_S128x64_0 l) shapeCasts_S128x64_S8192

theorem xarr_eq (c : Dev nD) : xarr m c = rowsOf (m ((c.tc : Thread nD τ).loc main_arg0)) := by
  show StableHlo.after hostOps0 (fun b => m (c, b)) (Proc.devRef .tc main_v5) = _
  after_results
  rfl

theorem rarr_eq (c : Dev nD) :
    rarr m c = shapeCast S8192x1 (labOf (m ((c.tc : Thread nD τ).loc main_arg1))) shapeCasts_S8192_S8192x1 := by
  show StableHlo.after hostOps0 (fun b => m (c, b)) (Proc.devRef .tc main_v3) = _
  after_results
  rfl

theorem carr_eq (c : Dev nD) :
    carr m c = shapeCast S1x8192 (labOf (m ((c.tc : Thread nD τ).loc main_arg1))) shapeCasts_S8192_S1x8192 := by
  show StableHlo.after hostOps0 (fun b => m (c, b)) (Proc.devRef .tc main_v4) = _
  after_results
  rfl

/-- Row `64 * k + v` of the merged feature array is slot `k`, view `v`: both sit at row-major position
    `(64 * k + v) * 256 + d`. -/
theorem rowsOf_apply (x : FVec Ideal S128x64x256 .f32) (k : Fin 128) (v : Fin 64) (d : Fin 256) (a : Fin 8192)
    (ha : a.val = 64 * k.val + v.val) : rowsOf x (ix2 a d) = x (ix3 k v d) := by
  show shapeCast S8192x256 x shapeCasts_S128x64x256_S8192x256 (ix2 a d) = _
  exact shapeCast_apply (s := S128x64x256) (t := S8192x256) x _ (ix2 a d) (ix3 k v d) (by
    rw [Shape.rowMajor_val_three, Shape.rowMajor_val_two]
    show (k.val * 64 + v.val) * 256 + d.val = a.val * 256 + d.val
    omega)

/-- Row `64 * k + v` carries slot `k`'s label. -/
theorem labOf_apply (l : IVec S128 32) (k : Fin 128) (v : Fin 64) (a : Fin 8192) (ha : a.val = 64 * k.val + v.val) :
    labOf l (ix1 a) = l (ix1 k) := by
  unfold labOf
  refine (shapeCast_apply (s := S128x64) (t := S8192) _ _ (ix1 a) (ix2 k v) (by
    rw [Shape.rowMajor_val_two, Shape.rowMajor_val_one]
    show k.val * 64 + v.val = a.val
    omega)).trans ?_
  exact broadcastInDim_apply (s := S128) (t := S128x64) _ _ _ (ix2 k v) (ix1 k) (fun b => match b with | ⟨0, _⟩ => rfl)

/-- A vector of 8192 entries as a column, -/
theorem col_apply (y : IVec S8192 32) (a : Fin 8192) :
    shapeCast S8192x1 y shapeCasts_S8192_S8192x1 (ix2 a (0 : Fin 1)) = y (ix1 a) :=
  shapeCast_apply (s := S8192) (t := S8192x1) y _ (ix2 a (0 : Fin 1)) (ix1 a) (by
    rw [Shape.rowMajor_val_two, Shape.rowMajor_val_one]
    show a.val = a.val * 1 + 0
    omega)

/-- and as a row. -/
theorem row_apply (y : IVec S8192 32) (a : Fin 8192) :
    shapeCast S1x8192 y shapeCasts_S8192_S1x8192 (ix2 (0 : Fin 1) a) = y (ix1 a) :=
  shapeCast_a_1a_apply y _ (0 : Fin 1) a

/-! ## The blocks the sixteen grid points read -/

/-- The block indices over the sixteen points: the feature rows and the label row are read whole at every point, the
    label column and the output move with the point, 512 rows at a time; a point's coordinate is its number. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ (grid0.coords t 0).val = t.val :=
  (by decide +kernel : ∀ t : Fin grid0.N, _)

/-- Every point's block of feature rows is the whole array. -/
theorem xblk_apply (c : Dev nD) (t : Fin cfg0.N) (a : Fin 8192) (d : Fin 256) :
    (iblk m c 0 t : Vec Ideal S8192x256 .bf16) (ix2 a d) = xarr m c (ix2 a d) := by
  obtain ⟨e0, e1, -⟩ := idx_facts t
  unfold iblk
  rw [View.read_apply]
  show V m c main_v5 _ = V m c main_v5 _
  refine congrArg (V m c main_v5) (funext fun b => Fin.ext ?_)
  match b with
  | ⟨0, _⟩ => show win0_0.index t (0 : Fin 2) * 8192 + 1 * a.val = a.val; rw [e0]; omega
  | ⟨1, _⟩ => show win0_0.index t (1 : Fin 2) * 256 + 1 * d.val = d.val; rw [e1]; omega

/-- Point `t`'s block of the label column is rows `512 * t … 512 * t + 511`. -/
theorem rblk_apply (c : Dev nD) (t : Fin cfg0.N) (p : Fin 512) :
    (iblk m c 1 t : Vec Ideal S512x1 .i32) (ix2 p (0 : Fin 1))
      = rarr m c (ix2 (Tile.rowOf (grid0.coords t) p) (0 : Fin 1)) := by
  obtain ⟨-, -, e2, e3, -, -, -, -, e8⟩ := idx_facts t
  unfold iblk
  rw [View.read_apply]
  show V m c main_v3 _ = V m c main_v3 _
  refine congrArg (V m c main_v3) (funext fun b => Fin.ext ?_)
  match b with
  | ⟨0, _⟩ =>
    show win0_1.index t (0 : Fin 2) * 512 + 1 * p.val = (grid0.coords t 0).val * 512 + p.val; rw [e2, e8]; omega
  | ⟨1, _⟩ => show win0_1.index t (1 : Fin 2) * 1 + 1 * (0 : Fin 1).val = (0 : Fin 1).val; rw [e3]; rfl

/-- Every point's block of the label row is the whole row. -/
theorem cblk_apply (c : Dev nD) (t : Fin cfg0.N) (b : Fin 8192) :
    (iblk m c 2 t : Vec Ideal S1x8192 .i32) (ix2 (0 : Fin 1) b) = carr m c (ix2 (0 : Fin 1) b) := by
  obtain ⟨-, -, -, -, e4, e5, -⟩ := idx_facts t
  unfold iblk
  rw [View.read_apply]
  show V m c main_v4 _ = V m c main_v4 _
  refine congrArg (V m c main_v4) (funext fun b' => Fin.ext ?_)
  match b' with
  | ⟨0, _⟩ => show win0_2.index t (0 : Fin 2) * 1 + 1 * (0 : Fin 1).val = (0 : Fin 1).val; rw [e4]; rfl
  | ⟨1, _⟩ => show win0_2.index t (1 : Fin 2) * 8192 + 1 * b.val = b.val; rw [e5]; omega

/-! ## The output array as one function of a row -/

/-- One anchor row's loss from the three arrays: the scores of row `a` against all 8192 rows, scaled by the
    reciprocal temperature, and the mask of the columns that carry row `a`'s label. -/
def rowVal (X : Vec Ideal S8192x256 .bf16) (R : Vec Ideal S8192x1 .i32) (C : Vec Ideal S1x8192 .i32) (a : Fin 8192) : EReal :=
  RowLoss.kerRow RowLoss.cOne (fun b : Fin 8192 => (∑ d : Fin 256, X (ix2 a d) * X (ix2 b d)) * Tile.kInv)
    (fun b : Fin 8192 => if R (ix2 a (0 : Fin 1)) = C (ix2 (0 : Fin 1) b) then 1 else 0)

/-- The output array: each row's loss. -/
def outOf (X : Vec Ideal S8192x256 .bf16) (R : Vec Ideal S8192x1 .i32) (C : Vec Ideal S1x8192 .i32) : Vec Ideal S8192x1 .f32 :=
  fun i => rowVal X R C ⟨(i 0).val, idx2_lt0 i⟩

/-- A tile row over blocks that are reads of the three arrays is the row's loss. -/
theorem rowVal_of_blocks (X : Vec Ideal S8192x256 .bf16) (R : Vec Ideal S8192x1 .i32) (C : Vec Ideal S1x8192 .i32)
    (x0 : Vec Ideal S8192x256 .bf16) (x1 : Vec Ideal S512x1 .i32) (x2 : Vec Ideal S1x8192 .i32) (p : Fin 512) (a : Fin 8192)
    (h0 : ∀ (b : Fin 8192) (d : Fin 256), x0 (ix2 b d) = X (ix2 b d))
    (h1 : x1 (ix2 p (0 : Fin 1)) = R (ix2 a (0 : Fin 1)))
    (h2 : ∀ b : Fin 8192, x2 (ix2 (0 : Fin 1) b) = C (ix2 (0 : Fin 1) b)) :
    RowLoss.kerRow RowLoss.cOne (fun b : Fin 8192 => (∑ d : Fin 256, x0 (ix2 a d) * x0 (ix2 b d)) * Tile.kInv)
      (fun b : Fin 8192 => if x1 (ix2 p (0 : Fin 1)) = x2 (ix2 (0 : Fin 1) b) then 1 else 0) = rowVal X R C a := by
  unfold rowVal
  simp only [h0, h1, h2]

/-- Two columns of 512 entries are equal when they agree row by row. -/
theorem col_ext {α : Type} (f g : S512x1.Idx → α) (h : ∀ p : Fin 512, f (ix2 p (0 : Fin 1)) = g (ix2 p (0 : Fin 1))) :
    f = g := by
  funext j
  obtain ⟨p, u, rfl⟩ : ∃ (p : Fin 512) (u : Fin 1), j = ix2 p u := ⟨j 0, j 1, eq_ix2 j⟩
  obtain rfl : u = 0 := Subsingleton.elim _ _
  exact h p

/-- What point `t` writes back is rows `512 * t … 512 * t + 511` of the output array: row `p` of its block is the
    tile row of anchor `512 * t + p` over the blocks it read. -/
theorem flushed_eq (c : Dev nD) (t : Fin cfg0.N) :
    (dats m 0 c).flushed 3 t
      = ((cfg0.win 3).blk t).view.read (Elt Ideal) (outOf (xarr m c) (rarr m c) (carr m c)) := by
  show (cfg0.win 3).cut (grid0.coords t) ((dats m 0 c).after 3 t) = _
  rw [after0_3]
  refine col_ext _ _ fun p => ?_
  show outsAt0 m c t (ix2 p (0 : Fin 1))
    = outOf (xarr m c) (rarr m c) (carr m c) (((cfg0.win 3).blk t).view.emb (ix2 p (0 : Fin 1)))
  unfold outsAt0
  refine (Tile.tile_row c (grid0.coords t) (ms0_0 t) (hs0_0 t) (ms0_1 t) (hs0_1 t) (ms0_2 t) (hs0_2 t) (ms0_3 t) (hs0_3 t)
    scM0_0 (Memref.isWhole_whole _) (iblk m c 0 t) (iblk m c 1 t) (iblk m c 2 t) p).trans ?_
  refine (rowVal_of_blocks (xarr m c) (rarr m c) (carr m c) (iblk m c 0 t) (iblk m c 1 t) (iblk m c 2 t) p
    (Tile.rowOf (grid0.coords t) p) (xblk_apply m c t) (rblk_apply m c t p) (cblk_apply m c t)).trans ?_
  obtain ⟨-, -, -, -, -, -, e6, -, e8⟩ := idx_facts t
  show rowVal (xarr m c) (rarr m c) (carr m c) _ = rowVal (xarr m c) (rarr m c) (carr m c) _
  refine congrArg (rowVal (xarr m c) (rarr m c) (carr m c)) (Fin.ext ?_)
  show (grid0.coords t 0).val * 512 + p.val = win0_3.index t (0 : Fin 2) * 512 + 1 * p.val
  rw [e6, e8]; omega

/-- An index of the output array is in point `t`'s block iff each coordinate is in the block's range on its axis. -/
theorem mem_blk (t : Fin cfg0.N) (i : S8192x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v6).slice (win0_3.rect t)).set ↔ _
  rw [View.set_slice_whole, Rect.mem_set_unit]
  exact Iff.rfl

/-- Row `r` of the output is in the block of point `r / 512`. -/
theorem cover (i : S8192x1.Idx) :
    ∃ t : Fin cfg0.N, (cfg0.win 3).flush t = true ∧ i ∈ ((cfg0.win 3).blk t).view.set := by
  have hi0 : (i 0).val < 8192 := idx2_lt0 i
  have hi1 : (i 1).val < 1 := idx2_lt1 i
  let t : Fin cfg0.N := ⟨(i 0).val / 512, lt_of_lt_of_eq (by omega : (i 0).val / 512 < 16) N_0.symm⟩
  obtain ⟨-, -, -, -, -, -, e6, e7, -⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    rw [e6]; show (i 0).val / 512 * 512 ≤ (i 0).val ∧ (i 0).val < (i 0).val / 512 * 512 + 512; omega
  | ⟨1, _⟩ =>
    show win0_3.index t (1 : Fin 2) * 1 ≤ (i 1).val ∧ (i 1).val < win0_3.index t (1 : Fin 2) * 1 + 1
    rw [e7]; omega

/-- The output array after the run: every row's loss. -/
theorem final_out (c : Dev nD) : (dats m 0 c).arrAt 3 cfg0.N = outOf (xarr m c) (rarr m c) (carr m c) :=
  (dats m 0 c).arrAt_eq_of_cover 3 (outOf (xarr m c) (rarr m c) (carr m c)) (fun t _ => flushed_eq m c t) cover

/-! ## The host tail, and the rows re-indexed by (slot, view) -/

/-- The host tail: the total of the output array from the zero word, divided by the row count, times the scale. -/
def tailOf (o : FVec Ideal S8192x1 .f32) : FVec Ideal S_ .f32 :=
  mulf (constant (F := Ideal) S_ .f32 0xBFB6DB6E#32)
    (Host.divf (Host.reduceAdd o (constant (F := Ideal) S_ .f32 0x00000000#32) reducesTo_S8192x1_S_d0_1 h_S_)
      (constant (F := Ideal) S_ .f32 0x46000000#32))

/-- At the extended reals the total is the plain sum (the zero word is `0`). -/
theorem tailOf_apply (o : FVec Ideal S8192x1 .f32) (j : S_.Idx) :
    tailOf o j = RowLoss.cScale * Ideal.div (∑ i, o i) RowLoss.cRows := by
  show Ideal.ofBits .f32 0xBFB6DB6E#32
    * Ideal.div (Ideal.hostReduceAdd reducesTo_S8192x1_S_d0_1 o (Ideal.ofBits .f32 0x00000000#32) j)
        (Ideal.ofBits .f32 0x46000000#32) = _
  rw [Ideal.hostReduceAdd_total _ (fun b => b.elim0), Ideal.ofBits_zero_f32, zero_add]

/-- Row `64 * c + v` of the laid-out arrays is slot `c`, view `v`: a bijection of the pairs with the 8192 rows. -/
def pairRow : RowLoss.Pair ≃ Fin 8192 where
  toFun p := ⟨64 * p.1.val + p.2.val, by have := p.1.isLt; have := p.2.isLt; omega⟩
  invFun a := (⟨a.val / 64, by have := a.isLt; omega⟩, ⟨a.val % 64, by omega⟩)
  left_inv p := Prod.ext (Fin.ext (by show (64 * p.1.val + p.2.val) / 64 = p.1.val; have := p.2.isLt; omega))
    (Fin.ext (by show (64 * p.1.val + p.2.val) % 64 = p.2.val; have := p.2.isLt; omega))
  right_inv a := Fin.ext (by show 64 * (a.val / 64) + a.val % 64 = a.val; omega)

/-- The sum over the output array is the sum of the rows' losses over the pairs: a sum does not depend on the order
    of its terms. -/
theorem sum_outOf (X : Vec Ideal S8192x256 .bf16) (R : Vec Ideal S8192x1 .i32) (C : Vec Ideal S1x8192 .i32) :
    ∑ i, outOf X R C i = ∑ p : RowLoss.Pair, rowVal X R C (pairRow p) := by
  rw [sum_idx2, Equiv.sum_comp pairRow (rowVal X R C)]
  refine Finset.sum_congr rfl fun a _ => ?_
  rw [Fin.sum_univ_one]
  rfl

/-- The loss of the row of pair `p`, its columns re-indexed by pairs too (`RowLoss.kerRow_comp`): the score against
    pair `q` is the inner product of the two pairs' feature rows, the mask compares their slots' labels. -/
theorem rowVal_pair (x : FVec Ideal S128x64x256 .f32) (l : IVec S128 32)
    (X : Vec Ideal S8192x256 .bf16) (R : Vec Ideal S8192x1 .i32) (C : Vec Ideal S1x8192 .i32)
    (hX : ∀ (p : RowLoss.Pair) (d : Fin 256), X (ix2 (pairRow p) d) = x (ix3 p.1 p.2 d))
    (hR : ∀ p : RowLoss.Pair, R (ix2 (pairRow p) (0 : Fin 1)) = l (ix1 p.1))
    (hC : ∀ p : RowLoss.Pair, C (ix2 (0 : Fin 1) (pairRow p)) = l (ix1 p.1)) (p : RowLoss.Pair) :
    rowVal X R C (pairRow p)
      = RowLoss.kerRow RowLoss.cOne (fun q => RowLoss.dotOf (RowLoss.Xof x) p q * Tile.kInv)
          (RowLoss.same (RowLoss.yof l) p) := by
  unfold rowVal
  refine (RowLoss.kerRow_comp pairRow RowLoss.cOne _ _).symm.trans ?_
  simp only [hX, hR, hC]
  rfl

/-- The host tail of the output array is the whole loss of the argument arrays. -/
theorem loss_of_rows (x : FVec Ideal S128x64x256 .f32) (l : IVec S128 32)
    (X : Vec Ideal S8192x256 .bf16) (R : Vec Ideal S8192x1 .i32) (C : Vec Ideal S1x8192 .i32)
    (hX : ∀ (p : RowLoss.Pair) (d : Fin 256), X (ix2 (pairRow p) d) = x (ix3 p.1 p.2 d))
    (hR : ∀ p : RowLoss.Pair, R (ix2 (pairRow p) (0 : Fin 1)) = l (ix1 p.1))
    (hC : ∀ p : RowLoss.Pair, C (ix2 (0 : Fin 1) (pairRow p)) = l (ix1 p.1)) (j : S_.Idx) :
    tailOf (outOf X R C) j
      = RowLoss.lossKer Tile.kInv RowLoss.cOne RowLoss.cRows RowLoss.cScale (RowLoss.Xof x) (RowLoss.yof l) := by
  rw [tailOf_apply, sum_outOf]
  unfold RowLoss.lossKer
  simp only [rowVal_pair x l X R C hX hR hC]

/-- The scalar the host tail leaves: its operations applied to the output array as the region leaves it. -/
theorem tail_eq (c : Dev nD) :
    Pipeline.afterTail₀ cfgs (dats m) 0 (V0 m) [hostOps1] c main_v9 = tailOf ((dats m 0 c).arrAt 3 cfg0.N) := by
  unfold Pipeline.afterTail₀
  show StableHlo.after hostOps1 _ (Proc.devRef .tc main_v9) = _
  after_results
  rw [Pipeline.withArrays_arr spec0 launch0.win.arr_inj c _ _ 3]
  rfl

/-- The scalar result is the loss of the argument arrays. -/
theorem result_eq (c : Dev nD) :
    Pipeline.afterTail₀ cfgs (dats m) 0 (V0 m) [hostOps1] c main_v9
      = (fun _ => RowLoss.lossKer Tile.kInv RowLoss.cOne RowLoss.cRows RowLoss.cScale
          (RowLoss.Xof (m ((c.tc : Thread nD τ).loc main_arg0))) (RowLoss.yof (m ((c.tc : Thread nD τ).loc main_arg1)))) := by
  rw [tail_eq, final_out]
  funext j
  refine loss_of_rows (m ((c.tc : Thread nD τ).loc main_arg0)) (m ((c.tc : Thread nD τ).loc main_arg1))
    (xarr m c) (rarr m c) (carr m c) (fun p d => ?_) (fun p => ?_) (fun p => ?_) j
  · rw [xarr_eq]; exact rowsOf_apply _ p.1 p.2 d (pairRow p) rfl
  · rw [rarr_eq]; exact (col_apply _ _).trans (labOf_apply _ p.1 p.2 (pairRow p) rfl)
  · rw [carr_eq]; exact (row_apply _ _).trans (labOf_apply _ p.1 p.2 (pairRow p) rfl)

end Parts

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9)
          = (fun _ => RowLoss.lossKer Tile.kInv RowLoss.cOne RowLoss.cRows RowLoss.cScale
              (RowLoss.Xof (m ((c.tc : Thread nD τ).loc main_arg0))) (RowLoss.yof (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v9 (Pipeline.mem_restRefs_of main_v9 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.ValueLeg

end
-- ==== Proof.RefValue.lean ====
/-
  The reference's result, read one operation at a time, is `RowLoss.lossRef` of the argument arrays: row `128 * v + c`
  of its 8192-row arrays is slot `c`, view `v`; the scores are divided by the temperature's binary value.
-/
import proofs.«417502_j22436909154959_3_alg».proof.Proof.Gen.ReferenceIdeal.Read
import proofs.«417502_j22436909154959_3_alg».proof.Proof.RowLoss
import Idealize.ShloMosaic.PureOps.Reduce
import Idealize.ShloMosaic.PureOps.Ideal
import Idealize.ShloMosaic.PureOps.Ideal.Laws
import Idealize.ShloMosaic.Lib.ValueIdx
import Mathlib.Algebra.BigOperators.Group.Finset.Basic
import Mathlib.Data.Finset.Fold

set_option maxRecDepth 16384

noncomputable section

namespace Cert.ReferenceIdeal.RefValue

open Idealize.ShloMosaic Idealize.ShloMosaic.TcCoe Idealize.SL.Sem Cert.ReferenceIdeal Cert.ReferenceIdeal.Gen Cert.ReferenceIdeal.Read
open Idealize.ShloMosaic.ValueIdx

/-! ## Rows and pairs

The reference lays its 8192 rows out view-major: row `128 * v + c` is class slot `c` of view `v`. -/

/-- Row `128 * v + c` of the 8192-row arrays is class slot `c`, view `v`. -/
def pairRow : RowLoss.Pair ≃ Fin 8192 where
  toFun p := ⟨128 * p.2.val + p.1.val, by have := p.1.isLt; have := p.2.isLt; omega⟩
  invFun i := (⟨i.val % 128, Nat.mod_lt _ (by decide)⟩, ⟨i.val / 128, by have := i.isLt; omega⟩)
  left_inv p := by
    obtain ⟨c, v⟩ := p
    have hc := c.isLt
    refine Prod.ext (Fin.ext ?_) (Fin.ext ?_)
    · show (128 * v.val + c.val) % 128 = c.val
      omega
    · show (128 * v.val + c.val) / 128 = v.val
      omega
  right_inv i := Fin.ext (by
    show 128 * (i.val / 128) + i.val % 128 = i.val
    omega)

/-- A rank-one index of the 8192 rows is its coordinate. -/
def rowIdx : Fin 8192 ≃ S8192.Idx where
  toFun i := ix1 i
  invFun j := j 0
  left_inv _ := rfl
  right_inv j := (eq_ix1 j).symm

/-! ## The arrays of rows and columns, at an index -/

/-- The feature rows (a transpose of the first two axes, then the two merged): row `i`, feature `d` is the
    argument at (slot, view, `d`). -/
theorem feat_apply (x0 : (⟨S128x64x256, .f32⟩ : BufTy).Contents (Elt Ideal)) (i : Fin 8192) (d : Fin 256) :
    val_main_v1 (F := Ideal) x0 (ix2 i d) = RowLoss.Xof x0 (pairRow.symm i).1 (pairRow.symm i).2 d := by
  rw [val_main_v1_apply, val_main_v0_apply]
  unfold RowLoss.Xof
  refine congrArg x0 (funext fun a => Fin.ext ?_)
  have hi := i.isLt
  have hd := d.isLt
  match a with
  | ⟨0, _⟩ =>
    show (i.val * 256 + d.val) / 256 % 128 = i.val % 128
    omega
  | ⟨1, _⟩ =>
    show (i.val * 256 + d.val) / 32768 = i.val / 128
    omega
  | ⟨2, _⟩ =>
    show (i.val * 256 + d.val) % 256 = d.val
    omega

/-- The labels (the 128 labels repeated once per view): row `i` carries its slot's label. -/
theorem lab_apply (x1 : (⟨S128, .i32⟩ : BufTy).Contents (Elt Ideal)) (i : Fin 8192) :
    val_main_v4 (F := Ideal) x1 (ix1 i) = RowLoss.yof x1 (pairRow.symm i).1 := by
  rw [val_main_v4_apply, val_main_v3_apply, val_main_v2_apply]
  unfold RowLoss.yof
  refine congrArg x1 (funext fun a => Fin.ext ?_)
  match a with
  | ⟨0, _⟩ =>
    show 0 * 128 + i.val % 128 = i.val % 128
    omega

/-- The scores: the inner product of the two rows' features, divided by the temperature. -/
theorem score_apply (x0 : (⟨S128x64x256, .f32⟩ : BufTy).Contents (Elt Ideal)) (i j : Fin 8192) :
    val_main_v8 (F := Ideal) x0 (ix2 i j)
      = Ideal.div (RowLoss.dotOf (RowLoss.Xof x0) (pairRow.symm i) (pairRow.symm j)) RowLoss.cTemp := by
  rw [val_main_v8_apply, val_main_v6_apply, val_main_v7_apply, val_main_cst_apply, Ideal.hostDivf_def, Ideal.ofBits_def]
  refine congrArg (Ideal.div · RowLoss.cTemp) ?_
  unfold RowLoss.dotOf
  refine Finset.sum_congr rfl fun d _ => ?_
  have el : lidx_main_v6 (ix2 i j) d = ix2 i d :=
    funext fun a => Fin.ext (by match a with | ⟨0, _⟩ => rfl | ⟨1, _⟩ => rfl)
  have er : idx_main_v5 (ridx_main_v6 (ix2 i j) d) = ix2 j d :=
    funext fun a => Fin.ext (by match a with | ⟨0, _⟩ => rfl | ⟨1, _⟩ => rfl)
  rw [val_main_v5_apply, el, er, feat_apply, feat_apply]

/-- A comparison for equality, read unsigned as a float, is one where the words agree and zero elsewhere. -/
theorem uitofp_cmpi_eq (a b : BitVec 32) :
    (FloatOps.uitofp (F := Ideal) .f32 (IntOp.cmpi .eq a b) : EReal) = if a = b then 1 else 0 := by
  show (((IntOp.cmpi .eq a b).toNat : ℝ) : EReal) = if a = b then 1 else 0
  by_cases h : a = b
  · subst h
    rw [if_pos rfl]
    simp [IntOp.cmpi]
  · rw [if_neg h]
    simp [IntOp.cmpi, h]

/-- The mask: one where the two rows' slots carry the same label. -/
theorem mask_apply (x1 : (⟨S128, .i32⟩ : BufTy).Contents (Elt Ideal)) (i j : Fin 8192) :
    val_main_v18 (F := Ideal) x1 (ix2 i j) = RowLoss.same (RowLoss.yof x1) (pairRow.symm i) (pairRow.symm j) := by
  have e15 : idx_main_v13 (idx_main_v15 (ix2 i j)) = ix1 i :=
    funext fun a => Fin.ext (by match a with | ⟨0, _⟩ => rfl)
  have e16 : idx_main_v14 (idx_main_v16 (ix2 i j)) = ix1 j :=
    funext fun a => Fin.ext (by match a with | ⟨0, _⟩ => rfl)
  rw [val_main_v18_apply, val_main_v17_apply, val_main_v15_apply, val_main_v13_apply, val_main_v16_apply,
    val_main_v14_apply, e15, e16, lab_apply, lab_apply, uitofp_cmpi_eq]
  rfl

/-- The word the row maximum is folded from denotes the bottom. -/
theorem ofBits_negInf : Ideal.ofBits .f32 0xFF800000#32 = (⊥ : EReal) := by
  simp [Ideal.ofBits, Ideal.ieee]

/-- The row maximum: the fold of `max` from the bottom over the row's columns. -/
theorem rowmax_apply (x0 : (⟨S128x64x256, .f32⟩ : BufTy).Contents (Elt Ideal)) (i : Fin 8192) :
    val_main_v9 (F := Ideal) x0 (ix1 i) = RowLoss.top (fun j : Fin 8192 => val_main_v8 (F := Ideal) x0 (ix2 i j)) := by
  unfold val_main_v9
  generalize val_main_v8 (F := Ideal) x0 = y
  refine (Host.reduce_eq_fold_single (FloatOps.maximumf (F := Ideal) (φ := .f32)) y (val_main_cst_0 (F := Ideal))
    reducesTo_S8192x8192_S8192_d1 (by decide) h_S_ (ix1 i)).trans ?_
  rw [val_main_cst_0_apply, Ideal.ofBits_def, ofBits_negInf]
  unfold RowLoss.top
  refine Finset.fold_congr fun k _ => ?_
  exact congrArg y (funext fun a => Fin.ext (by match a with | ⟨0, _⟩ => rfl | ⟨1, _⟩ => rfl))

/-! ## One anchor row

Row `i`'s scores and mask against every column `j`, and each later array of the reference at that row. -/

/-- Row `i`'s scores against every column. -/
def rowScore (x0 : (⟨S128x64x256, .f32⟩ : BufTy).Contents (Elt Ideal)) (i : Fin 8192) : Fin 8192 → EReal :=
  fun j => val_main_v8 (F := Ideal) x0 (ix2 i j)
/-- Row `i`'s mask against every column. -/
def rowMask (x1 : (⟨S128, .i32⟩ : BufTy).Contents (Elt Ideal)) (i : Fin 8192) : Fin 8192 → EReal :=
  fun j => val_main_v18 (F := Ideal) x1 (ix2 i j)

section Row

variable (x0 : (⟨S128x64x256, .f32⟩ : BufTy).Contents (Elt Ideal)) (x1 : (⟨S128, .i32⟩ : BufTy).Contents (Elt Ideal))

/-- The shifted scores. -/
theorem lg_apply (i j : Fin 8192) : val_main_v12 (F := Ideal) x0 (ix2 i j) = RowLoss.lg (rowScore x0 i) j := by
  have e11 : idx_main_v10 (idx_main_v11 (ix2 i j)) = ix1 i :=
    funext fun a => Fin.ext (by match a with | ⟨0, _⟩ => rfl)
  rw [val_main_v12_apply, val_main_v11_apply, val_main_v10_apply, e11, rowmax_apply, Ideal.subf_def]
  rfl

/-- Their exponentials. -/
theorem ex_apply (i j : Fin 8192) : val_main_v19 (F := Ideal) x0 (ix2 i j) = RowLoss.ex (rowScore x0 i) j := by
  rw [val_main_v19_apply, lg_apply, Ideal.hostUnary_exp_def]
  rfl

/-- The exponentials of the columns with another label, summed from zero. -/
theorem neg_apply (i : Fin 8192) :
    val_main_v23 (F := Ideal) x0 x1 (ix1 i) = RowLoss.neg RowLoss.cOne (rowScore x0 i) (rowMask x1 i) := by
  rw [val_main_v23_apply, val_main_cst_2_apply, Ideal.ofBits_def, Ideal.ofBits_zero_f32, zero_add]
  unfold RowLoss.neg
  refine Finset.sum_congr rfl fun k _ => ?_
  have e23 : idx_main_v23 (ix1 i) k = ix2 i k :=
    funext fun a => Fin.ext (by match a with | ⟨0, _⟩ => rfl | ⟨1, _⟩ => rfl)
  rw [e23, val_main_v22_apply, val_main_v21_apply, val_main_v20_apply, val_main_cst_1_apply, ex_apply,
    Ideal.mulf_def, Ideal.subf_def, Ideal.ofBits_def]
  rfl

/-- The logarithm of a column's exponential plus that sum. -/
theorem lp_apply (i j : Fin 8192) :
    val_main_v27 (F := Ideal) x0 x1 (ix2 i j) = RowLoss.lp RowLoss.cOne (rowScore x0 i) (rowMask x1 i) j := by
  have e25 : idx_main_v24 (idx_main_v25 (ix2 i j)) = ix1 i :=
    funext fun a => Fin.ext (by match a with | ⟨0, _⟩ => rfl)
  rw [val_main_v27_apply, val_main_v26_apply, val_main_v25_apply, val_main_v24_apply, e25, neg_apply, ex_apply,
    Ideal.hostUnary_log_def, Ideal.addf_def]
  rfl

/-- The row's numerator, summed from zero. -/
theorem num_apply (i : Fin 8192) :
    val_main_v30 (F := Ideal) x0 x1 (ix1 i)
      = ∑ j, rowMask x1 i j * (RowLoss.lg (rowScore x0 i) j - RowLoss.lp RowLoss.cOne (rowScore x0 i) (rowMask x1 i) j) := by
  rw [val_main_v30_apply, val_main_cst_3_apply, Ideal.ofBits_def, Ideal.ofBits_zero_f32, zero_add]
  refine Finset.sum_congr rfl fun k _ => ?_
  have e30 : idx_main_v30 (ix1 i) k = ix2 i k :=
    funext fun a => Fin.ext (by match a with | ⟨0, _⟩ => rfl | ⟨1, _⟩ => rfl)
  rw [e30, val_main_v29_apply, val_main_v28_apply, lg_apply, lp_apply, Ideal.mulf_def, Ideal.subf_def]
  rfl

/-- The row's denominator, summed from zero. -/
theorem den_apply (i : Fin 8192) : val_main_v31 (F := Ideal) x1 (ix1 i) = ∑ j, rowMask x1 i j := by
  rw [val_main_v31_apply, val_main_cst_4_apply, Ideal.ofBits_def, Ideal.ofBits_zero_f32, zero_add]
  refine Finset.sum_congr rfl fun k _ => ?_
  have e31 : idx_main_v31 (ix1 i) k = ix2 i k :=
    funext fun a => Fin.ext (by match a with | ⟨0, _⟩ => rfl | ⟨1, _⟩ => rfl)
  rw [e31]
  rfl

/-- The row's value. -/
theorem row_apply (i : Fin 8192) :
    val_main_v32 (F := Ideal) x0 x1 (ix1 i) = RowLoss.refRow RowLoss.cOne (rowScore x0 i) (rowMask x1 i) := by
  rw [val_main_v32_apply, num_apply, den_apply, Ideal.hostDivf_def]
  rfl

/-- The row of a pair, its columns indexed by pairs: the row's value does not depend on the order of the columns. -/
theorem row_pair (p : RowLoss.Pair) :
    val_main_v32 (F := Ideal) x0 x1 (ix1 (pairRow p))
      = RowLoss.refRow RowLoss.cOne (fun q => Ideal.div (RowLoss.dotOf (RowLoss.Xof x0) p q) RowLoss.cTemp)
          (RowLoss.same (RowLoss.yof x1) p) := by
  have hs : rowScore x0 (pairRow p)
      = fun j => (fun q => Ideal.div (RowLoss.dotOf (RowLoss.Xof x0) p q) RowLoss.cTemp) (pairRow.symm j) :=
    funext fun j => by
      show val_main_v8 (F := Ideal) x0 (ix2 (pairRow p) j) = _
      rw [score_apply, Equiv.symm_apply_apply]
  have hm : rowMask x1 (pairRow p) = fun j => RowLoss.same (RowLoss.yof x1) p (pairRow.symm j) :=
    funext fun j => by
      show val_main_v18 (F := Ideal) x1 (ix2 (pairRow p) j) = _
      rw [mask_apply, Equiv.symm_apply_apply]
  rw [row_apply, hs, hm]
  exact RowLoss.refRow_comp pairRow.symm RowLoss.cOne
    (fun q => Ideal.div (RowLoss.dotOf (RowLoss.Xof x0) p q) RowLoss.cTemp) (RowLoss.same (RowLoss.yof x1) p)

end Row

/-! ## The whole loss

The rows' values summed from zero over the 8192 rows, re-indexed by pairs, divided by the row count and scaled. -/

theorem ref_value (x0 : (⟨S128x64x256, .f32⟩ : BufTy).Contents (Elt Ideal)) (x1 : (⟨S128, .i32⟩ : BufTy).Contents (Elt Ideal)) :
    val_main_v35 (F := Ideal) x0 x1
      = (fun _ => RowLoss.lossRef RowLoss.cTemp RowLoss.cOne RowLoss.cRows RowLoss.cScale (RowLoss.Xof x0) (RowLoss.yof x1)) := by
  funext i0
  rw [val_main_v35_apply, val_main_v34_apply, val_main_v33_apply, val_main_cst_7_apply, val_main_cst_6_apply,
    val_main_cst_5_apply, Ideal.mulf_def, Ideal.hostDivf_def, Ideal.ofBits_def, Ideal.ofBits_def, Ideal.ofBits_def,
    Ideal.ofBits_zero_f32, zero_add]
  unfold RowLoss.lossRef
  refine congrArg (fun t => RowLoss.cScale * Ideal.div t RowLoss.cRows) ?_
  calc ∑ j : S8192.Idx, val_main_v32 (F := Ideal) x0 x1 j
      = ∑ i : Fin 8192, val_main_v32 (F := Ideal) x0 x1 (rowIdx i) := (Equiv.sum_comp rowIdx _).symm
    _ = ∑ p : RowLoss.Pair, val_main_v32 (F := Ideal) x0 x1 (rowIdx (pairRow p)) :=
        (Equiv.sum_comp pairRow fun i => val_main_v32 (F := Ideal) x0 x1 (rowIdx i)).symm
    _ = _ := Finset.sum_congr rfl fun p _ => row_pair x0 x1 p

end Cert.ReferenceIdeal.RefValue

end
-- ==== Proof.lean ====
/-
  The certificate's claims assembled. Both idealized programs compute the supervised-contrastive loss of 8192 anchor
  rows (128 class slots × 64 views) over a 256-dimensional feature. The kernel lays the rows out slot-major, scales the
  scores by the NAMED reciprocal temperature (exactly 1 / 0.1f, the reciprocal of the reference's divisor), keeps three
  running row sums and subtracts the log-correction sum at the end; the reference lays them out view-major, divides by
  the temperature and takes the difference inside one sum. On finite features every intermediate is a real number and
  the two arrangements are one function of the arguments (`RowLoss.lossKer_eq_lossRef`); the order of the rows does not
  matter to a sum, nor the order of the columns to a row's maximum and sums.
-/
import proofs.«417502_j22436909154959_3_alg».proof.Defs
import proofs.«417502_j22436909154959_3_alg».proof.Proof.Gen.Kernel
import proofs.«417502_j22436909154959_3_alg».proof.Proof.Gen.Kernel.Skeleton
import proofs.«417502_j22436909154959_3_alg».proof.Proof.Gen.Kernel.Launch
import proofs.«417502_j22436909154959_3_alg».proof.Proof.Gen.Kernel.Points
import proofs.«417502_j22436909154959_3_alg».proof.Proof.Gen.Kernel.Frame
import proofs.«417502_j22436909154959_3_alg».proof.Proof.Gen.KernelIdeal
import proofs.«417502_j22436909154959_3_alg».proof.Proof.Gen.KernelIdeal.Skeleton
import proofs.«417502_j22436909154959_3_alg».proof.Proof.Gen.KernelIdeal.Launch
import proofs.«417502_j22436909154959_3_alg».proof.Proof.Gen.KernelIdeal.Points
import proofs.«417502_j22436909154959_3_alg».proof.Proof.Gen.KernelIdeal.Frame
import proofs.«417502_j22436909154959_3_alg».proof.Proof.Gen.ReferenceIdeal
import proofs.«417502_j22436909154959_3_alg».proof.Proof.Gen.Pre_finite_inputs
import proofs.«417502_j22436909154959_3_alg».proof.Proof.Gen.ReferenceIdeal.Run
import proofs.«417502_j22436909154959_3_alg».proof.Proof.Gen.ReferenceIdeal.Read
import proofs.«417502_j22436909154959_3_alg».proof.Proof.RowLoss
import proofs.«417502_j22436909154959_3_alg».proof.Proof.Finite
import proofs.«417502_j22436909154959_3_alg».proof.Proof.KernelValue
import proofs.«417502_j22436909154959_3_alg».proof.Proof.RefValue
import Idealize.ShloMosaic.Adequacy
import Idealize.ShloMosaic.Init

noncomputable section

namespace Cert.Proof

open Idealize.ShloMosaic Idealize.ShloMosaic.TcCoe Idealize.SL.Sem

/-- The kernel's named reciprocal temperature denotes the rational 134217728/13421773 at the extended reals, by the
    certificate's table. -/
theorem kInv_eq : Cert.KernelIdeal.Tile.kInv = Cert.RowLoss.cInvTemp :=
  IdealRules.named_const.ideal_named_scalar _ _ _ _ rfl

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ledger's eight entries are one statement: the certificate's table gives `"inv_temp"` the value
    134217728/13421773, and the printed constant is that value at the extended reals. -/
theorem preserves : Cert.preserves_Kernel_KernelIdeal :=
  have s := IdealRules.named_const.statement Cert.KernelIdeal.κ "inv_temp" .f32 0x41200000#32 ((134217728 / 13421773 : ℝ) : EReal) rfl
  ⟨s, s, s, s, s, s, s, s⟩

/-- The kernel's result is `lossKer` of its arguments and the reference's `lossRef` of arguments that agree; on finite
    features these are one number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.ValueLeg.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.ref_value, (hagree c).1, (hagree c).2]
  funext _
  rw [kInv_eq]
  exact (Cert.RowLoss.lossKer_eq_lossRef _ _ _ _ _ _ _ Cert.RowLoss.div_cTemp ⟨_, rfl⟩ Cert.RowLoss.cOne_eq
    (fun cs v d => Cert.Finite.real_of_pre _ _ (hpre c) _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
